-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_sqrt_d" .f32 0x3D13CD3A#32 ((524288 / 14529495 : ℝ) : EReal)
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S64x768 : Shape := ⟨2, ![64, 768]⟩
abbrev S64 : Shape := ⟨1, ![64]⟩
abbrev S32x768 : Shape := ⟨2, ![32, 768]⟩
abbrev S32 : Shape := ⟨1, ![32]⟩
abbrev S16x768 : Shape := ⟨2, ![16, 768]⟩
abbrev S16 : Shape := ⟨1, ![16]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_
  bcast_S_S32x768 : S_.BroadcastsInDim S32x768 (![] : Fin 0 → Fin S32x768.rank)
  reducesTo_S32x768_S_d0_1 : S32x768.ReducesTo [0, 1] S_
  bcast_S_S32 : S_.BroadcastsInDim S32 (![] : Fin 0 → Fin S32.rank)
  reducesTo_S32_S_d0 : S32.ReducesTo [0] S_
  bcast_S_S16x768 : S_.BroadcastsInDim S16x768 (![] : Fin 0 → Fin S16x768.rank)
  reducesTo_S16x768_S_d0_1 : S16x768.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x768 .f32) (main_arg8 : FVec F S16x768 .f32) (main_arg9 : FVec F S16 .f32) (main_v33 : IVec S_ 1) : IVec S_ 1 :=
  let main_v34 : FVec F S16x768 .f32 := Host.absf main_arg7
  let main_cst_12 : FVec F S_ .f32 := constant S_ .f32 0x7F800000#32
  let main_v35 : FVec F S16x768 .f32 := broadcastInDim S16x768 ![] bcast_S_S16x768 main_cst_12
  let main_v36 : IVec S16x768 1 := cmpf .olt main_v34 main_v35
  let main_c_13 : IVec S_ 1 := constantI S_ 1 1#1
  let main_v37 : IVec S_ 1 := (fun x v => Host.reduce IntOp.andi x v reducesTo_S16x768_S_d0_1 h_S_) main_v36 main_c_13
  let main_v38 : IVec S_ 1 := andi main_v33 main_v37
  let main_v39 : FVec F S16x768 .f32 := Host.absf main_arg8
  let main_cst_14 : FVec F S_ .f32 := constant S_ .f32 0x7F800000#32
  let main_v40 : FVec F S16x768 .f32 := broadcastInDim S16x768 ![] bcast_S_S16x768 main_cst_14
  let main_v41 : IVec S16x768 1 := cmpf .olt main_v39 main_v40
  let main_c_15 : IVec S_ 1 := constantI S_ 1 1#1
  let main_v42 : IVec S_ 1 := (fun x v => Host.reduce IntOp.andi x v reducesTo_S16x768_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S32x768 .f32) (main_arg5 : FVec F S32x768 .f32) (main_arg6 : FVec F S32 .f32) (main_arg7 : FVec F S16x768 .f32) (main_arg8 : FVec F S16x768 .f32) (main_arg9 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x768 .f32 := Host.absf main_arg4
  let main_cst_6 : FVec F S_ .f32 := constant S_ .f32 0x7F800000#32
  let main_v20 : FVec F S32x768 .f32 := broadcastInDim S32x768 ![] bcast_S_S32x768 main_cst_6
  let main_v21 : IVec S32x768 1 := cmpf .olt main_v19 main_v20
  let main_c_7 : IVec S_ 1 := constantI S_ 1 1#1
  let main_v22 : IVec S_ 1 := (fun x v => Host.reduce IntOp.andi x v reducesTo_S32x768_S_d0_1 h_S_) main_v21 main_c_7
  let main_v23 : IVec S_ 1 := andi main_v18 main_v22
  let main_v24 : FVec F S32x768 .f32 := Host.absf main_arg5
  let main_cst_8 : FVec F S_ .f32 := constant S_ .f32 0x7F800000#32
  let main_v25 : FVec F S32x768 .f32 := broadcastInDim S32x768 ![] bcast_S_S32x768 main_cst_8
  let main_v26 : IVec S32x768 1 := cmpf .olt main_v24 main_v25
  let main_c_9 : IVec S_ 1 := constantI S_ 1 1#1
  let main_v27 : IVec S_ 1 := (fun x v => Host.reduce IntOp.andi x v reducesTo_S32x768_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_v33

def fn {F : FTy → Type} [FloatOps F] (main_arg0 : FVec F S4x4096x768 .f32) (main_arg1 : FVec F S64x768 .f32) (main_arg2 : FVec F S64x768 .f32) (main_arg3 : FVec F S64 .f32) (main_arg4 : FVec F S32x768 .f32) (main_arg5 : FVec F S32x768 .f32) (main_arg6 : FVec F S32 .f32) (main_arg7 : FVec F S16x768 .f32) (main_arg8 : FVec F S16x768 .f32) (main_arg9 : FVec F S16 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S4x4096x768 : Shape := ⟨3, ![4, 4096, 768]⟩
abbrev S64x768 : Shape := ⟨2, ![64, 768]⟩
abbrev S64 : Shape := ⟨1, ![64]⟩
abbrev S32x768 : Shape := ⟨2, ![32, 768]⟩
abbrev S32 : Shape := ⟨1, ![32]⟩
abbrev S16x768 : Shape := ⟨2, ![16, 768]⟩
abbrev S16 : Shape := ⟨1, ![16]⟩
abbrev S16384x768 : Shape := ⟨2, ![16384, 768]⟩
abbrev S112x768 : Shape := ⟨2, ![112, 768]⟩
abbrev S_ : Shape := ⟨0, ![]⟩
abbrev S128x768 : Shape := ⟨2, ![128, 768]⟩
abbrev S112 : Shape := ⟨1, ![112]⟩
abbrev S128 : Shape := ⟨1, ![128]⟩
abbrev S1x128 : Shape := ⟨2, ![1, 128]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 7
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64, .f32⟩
  | .hbm, ⟨4, _⟩ => ⟨S32x768, .f32⟩
  | .hbm, ⟨5, _⟩ => ⟨S32x768, .f32⟩
  | .hbm, ⟨6, _⟩ => ⟨S32, .f32⟩
  | .hbm, ⟨7, _⟩ => ⟨S16x768, .f32⟩
  | .hbm, ⟨8, _⟩ => ⟨S16x768, .f32⟩
  | .hbm, ⟨9, _⟩ => ⟨S16, .f32⟩
  | .hbm, ⟨10, _⟩ => ⟨S16384x768, .f32⟩
  | .hbm, ⟨11, _⟩ => ⟨S112x768, .f32⟩
  | .hbm, ⟨12, _⟩ => ⟨S112x768, .f32⟩
  | .hbm, ⟨13, _⟩ => ⟨S_, .i32⟩
  | .hbm, ⟨14, _⟩ => ⟨S_, .f32⟩
  | .hbm, ⟨15, _⟩ => ⟨S128x768, .f32⟩
  | .hbm, ⟨16, _⟩ => ⟨S_, .i32⟩
  | .hbm, ⟨17, _⟩ => ⟨S_, .f32⟩
  | .hbm, ⟨18, _⟩ => ⟨S128x768, .f32⟩
  | .hbm, ⟨19, _⟩ => ⟨S112, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S16384x768, .f32⟩
  | .hbm, ⟨25, _⟩ => ⟨S4x4096x768, .f32⟩
  | .local _ .vmem, ⟨0, _⟩ => ⟨S512x768, .f32⟩
  | .local _ .vmem, ⟨1, _⟩ => ⟨S512x768, .f32⟩
  | .local _ .vmem, ⟨2, _⟩ => ⟨S128x768, .f32⟩
  | .local _ .vmem, ⟨3, _⟩ => ⟨S128x768, .f32⟩
  | .local _ .vmem, ⟨4, _⟩ => ⟨S1x128, .f32⟩
  | .local _ .vmem, ⟨5, _⟩ => ⟨S512x768, .f32⟩
  | .local _ .vmem, ⟨6, _⟩ => ⟨S512x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x768_S16384x768 : S4x4096x768.ShapeCasts S16384x768
  concatenates_S64x768_S32x768_S16x768_S112x768_d0 : Shape.Concatenates [S64x768, S32x768, S16x768] S112x768 0
  pads_S112x768_S128x768_0160_000 : S112x768.Pads (![0, 0] : Fin 2 → Nat) ![16, 0] ![0, 0] S128x768
  h_S_ : 0 < S_.numel
  concatenates_S64_S32_S16_S112_d0 : Shape.Concatenates [S64, S32, S16] S112 0
  pads_S112_S128_0160 : S112.Pads (![0] : Fin 1 → Nat) ![16] ![0] S128
  shapeCasts_S128_S1x128 : S128.ShapeCasts S1x128
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  iota_S512x128_d1_w32 : S512x128.Iotas .tc 32 [1]
  reduces_S512x128_S512 : S512x128.Reduces [1] S512
  shapeCasts_S512_S512x1 : S512.ShapeCasts S512x1
  broadcasts_S512x1_S512x128 : S512x1.Broadcasts S512x128
  shapeCasts_S16384x768_S4x4096x768 : S16384x768.ShapeCasts S4x4096x768
  dot_S512x768_S128x768_S512x128_1_1_0_0_n_n_wf : DotDims.WF S512x768 S128x768 S512x128 [1] [1] [0] [0] [] []
  dot_S512x128_S128x768_S512x768_1_0_0_1_n_n_wf : DotDims.WF S512x128 S128x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S16384x768.size a
  hwx0_0 : ∀ i : grid0.Coords, EltTy.bits .f32 = 32 ∨ (Rect.block (s := S16384x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S16384x768.size a
  hwx0_4 : ∀ i : grid0.Coords, EltTy.bits .f32 = 32 ∨ (Rect.block (s := S16384x768) S512x768.size (cc0_transform_4 i) (hinb0_4 i)).WholeWords (EltTy.packing .f32)

variable [Facts₀]

def dot_S512x768_S128x768_S512x128_1_1_0_0_n_n : DotDims S512x768 S128x768 S512x128 where
  lhsContracting := [1]
  rhsContracting := [1]
  lhsNonContracting := [0]
  rhsNonContracting := [0]
  lhsBatch := []
  rhsBatch := []
  wf := dot_S512x768_S128x768_S512x128_1_1_0_0_n_n_wf
def dot_S512x128_S128x768_S512x768_1_0_0_1_n_n : DotDims S512x128 S128x768 S512x768 where
  lhsContracting := [1]
  rhsContracting := [0]
  lhsNonContracting := [0]
  rhsNonContracting := [1]
  lhsBatch := []
  rhsBatch := []
  wf := dot_S512x128_S128x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x768 : Shape := ⟨3, ![4, 4096, 768]⟩
abbrev S64x768 : Shape := ⟨2, ![64, 768]⟩
abbrev S64 : Shape := ⟨1, ![64]⟩
abbrev S32x768 : Shape := ⟨2, ![32, 768]⟩
abbrev S32 : Shape := ⟨1, ![32]⟩
abbrev S16x768 : Shape := ⟨2, ![16, 768]⟩
abbrev S16 : Shape := ⟨1, ![16]⟩
abbrev S_ : Shape := ⟨0, ![]⟩
abbrev S4x4096x64 : Shape := ⟨3, ![4, 4096, 64]⟩
abbrev S1x1x64 : Shape := ⟨3, ![1, 1, 64]⟩
abbrev S4x4096 : Shape := ⟨2, ![4, 4096]⟩
abbrev S4x4096x1 : Shape := ⟨3, ![4, 4096, 1]⟩
abbrev S4x4096x32 : Shape := ⟨3, ![4, 4096, 32]⟩
abbrev S1x1x32 : Shape := ⟨3, ![1, 1, 32]⟩
abbrev S4x4096x16 : Shape := ⟨3, ![4, 4096, 16]⟩
abbrev S1x1x16 : Shape := ⟨3, ![1, 1, 16]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64, .f32⟩
  | .hbm, ⟨4, _⟩ => ⟨S32x768, .f32⟩
  | .hbm, ⟨5, _⟩ => ⟨S32x768, .f32⟩
  | .hbm, ⟨6, _⟩ => ⟨S32, .f32⟩
  | .hbm, ⟨7, _⟩ => ⟨S16x768, .f32⟩
  | .hbm, ⟨8, _⟩ => ⟨S16x768, .f32⟩
  | .hbm, ⟨9, _⟩ => ⟨S16, .f32⟩
  | .hbm, ⟨10, _⟩ => ⟨S_, .f32⟩
  | .hbm, ⟨11, _⟩ => ⟨S4x4096x768, .f32⟩
  | .hbm, ⟨12, _⟩ => ⟨S4x4096x64, .f32⟩
  | .hbm, ⟨13, _⟩ => ⟨S_, .f32⟩
  | .hbm, ⟨14, _⟩ => ⟨S4x4096x64, .f32⟩
  | .hbm, ⟨15, _⟩ => ⟨S4x4096x64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x64, .f32⟩
  | .hbm, ⟨26, _⟩ => ⟨S4x4096x64, .f32⟩
  | .hbm, ⟨27, _⟩ => ⟨S4x4096x64, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x64, .f32⟩
  | .hbm, ⟨32, _⟩ => ⟨S4x4096x64, .f32⟩
  | .hbm, ⟨33, _⟩ => ⟨S4x4096x768, .f32⟩
  | .hbm, ⟨34, _⟩ => ⟨S_, .f32⟩
  | .hbm, ⟨35, _⟩ => ⟨S4x4096x768, .f32⟩
  | .hbm, ⟨36, _⟩ => ⟨S4x4096x768, .f32⟩
  | .hbm, ⟨37, _⟩ => ⟨S4x4096x768, .f32⟩
  | .hbm, ⟨38, _⟩ => ⟨S4x4096x32, .f32⟩
  | .hbm, ⟨39, _⟩ => ⟨S_, .f32⟩
  | .hbm, ⟨40, _⟩ => ⟨S4x4096x32, .f32⟩
  | .hbm, ⟨41, _⟩ => ⟨S4x4096x32, .f32⟩
  | .hbm, ⟨42, _⟩ => ⟨S1x1x32, .f32⟩
  | .hbm, ⟨43, _⟩ => ⟨S4x4096x32, .f32⟩
  | .hbm, ⟨44, _⟩ => ⟨S4x4096x32, .f32⟩
  | .hbm, ⟨45, _⟩ => ⟨S_, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S4x4096x1, .f32⟩
  | .hbm, ⟨51, _⟩ => ⟨S4x4096x32, .f32⟩
  | .hbm, ⟨52, _⟩ => ⟨S4x4096x32, .f32⟩
  | .hbm, ⟨53, _⟩ => ⟨S4x4096x32, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S4x4096x32, .f32⟩
  | .hbm, ⟨58, _⟩ => ⟨S4x4096x32, .f32⟩
  | .hbm, ⟨59, _⟩ => ⟨S4x4096x768, .f32⟩
  | .hbm, ⟨60, _⟩ => ⟨S_, .f32⟩
  | .hbm, ⟨61, _⟩ => ⟨S4x4096x768, .f32⟩
  | .hbm, ⟨62, _⟩ => ⟨S4x4096x768, .f32⟩
  | .hbm, ⟨63, _⟩ => ⟨S4x4096x768, .f32⟩
  | .hbm, ⟨64, _⟩ => ⟨S4x4096x16, .f32⟩
  | .hbm, ⟨65, _⟩ => ⟨S_, .f32⟩
  | .hbm, ⟨66, _⟩ => ⟨S4x4096x16, .f32⟩
  | .hbm, ⟨67, _⟩ => ⟨S4x4096x16, .f32⟩
  | .hbm, ⟨68, _⟩ => ⟨S1x1x16, .f32⟩
  | .hbm, ⟨69, _⟩ => ⟨S4x4096x16, .f32⟩
  | .hbm, ⟨70, _⟩ => ⟨S4x4096x16, .f32⟩
  | .hbm, ⟨71, _⟩ => ⟨S_, .f32⟩
  | .hbm, ⟨72, _⟩ => ⟨S4x4096, .f32⟩
  | .hbm, ⟨73, _⟩ => ⟨S_, .f32⟩
  | .hbm, ⟨74, _⟩ => ⟨S4x4096, .f32⟩
  | .hbm, ⟨75, _⟩ => ⟨S4x4096, .f32⟩
  | .hbm, ⟨76, _⟩ => ⟨S4x4096x1, .f32⟩
  | .hbm, ⟨77, _⟩ => ⟨S4x4096x16, .f32⟩
  | .hbm, ⟨78, _⟩ => ⟨S4x4096x16, .f32⟩
  | .hbm, ⟨79, _⟩ => ⟨S4x4096x16, .f32⟩
  | .hbm, ⟨80, _⟩ => ⟨S_, .f32⟩
  | .hbm, ⟨81, _⟩ => ⟨S4x4096, .f32⟩
  | .hbm, ⟨82, _⟩ => ⟨S4x4096x1, .f32⟩
  | .hbm, ⟨83, _⟩ => ⟨S4x4096x16, .f32⟩
  | .hbm, ⟨84, _⟩ => ⟨S4x4096x16, .f32⟩
  | .hbm, ⟨85, _⟩ => ⟨S4x4096x768, .f32⟩
  | .hbm, ⟨86, _⟩ => ⟨S_, .f32⟩
  | .hbm, ⟨87, _⟩ => ⟨S4x4096x768, .f32⟩
  | .hbm, ⟨88, _⟩ => ⟨S4x4096x768, .f32⟩
  | .hbm, ⟨89, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  bcast_S_S4x4096x768 : S_.BroadcastsInDim S4x4096x768 (![] : Fin 0 → Fin S4x4096x768.rank)
  bcast_S_S4x4096x64 : S_.BroadcastsInDim S4x4096x64 (![] : Fin 0 → Fin S4x4096x64.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  bcast_S_S4x4096x32 : S_.BroadcastsInDim S4x4096x32 (![] : Fin 0 → Fin S4x4096x32.rank)
  bcast_S32_S1x1x32_2 : S32.BroadcastsInDim S1x1x32 (![2] : Fin 1 → Fin S1x1x32.rank)
  bcast_S1x1x32_S4x4096x32_0_1_2 : S1x1x32.BroadcastsInDim S4x4096x32 (![0, 1, 2] : Fin 3 → Fin S4x4096x32.rank)
  reducesTo_S4x4096x32_S4x4096_d2 : S4x4096x32.ReducesTo [2] S4x4096
  bcast_S4x4096x1_S4x4096x32_0_1_2 : S4x4096x1.BroadcastsInDim S4x4096x32 (![0, 1, 2] : Fin 3 → Fin S4x4096x32.rank)
  bcast_S_S4x4096x16 : S_.BroadcastsInDim S4x4096x16 (![] : Fin 0 → Fin S4x4096x16.rank)
  bcast_S16_S1x1x16_2 : S16.BroadcastsInDim S1x1x16 (![2] : Fin 1 → Fin S1x1x16.rank)
  bcast_S1x1x16_S4x4096x16_0_1_2 : S1x1x16.BroadcastsInDim S4x4096x16 (![0, 1, 2] : Fin 3 → Fin S4x4096x16.rank)
  reducesTo_S4x4096x16_S4x4096_d2 : S4x4096x16.ReducesTo [2] S4x4096
  bcast_S4x4096x1_S4x4096x16_0_1_2 : S4x4096x1.BroadcastsInDim S4x4096x16 (![0, 1, 2] : Fin 3 → Fin S4x4096x16.rank)
  dot_S4x4096x768_S64x768_S4x4096x64_2_1_01_0_n_n_wf : DotDims.WF S4x4096x768 S64x768 S4x4096x64 [2] [1] [0, 1] [0] [] []
  dot_S4x4096x64_S64x768_S4x4096x768_2_0_01_1_n_n_wf : DotDims.WF S4x4096x64 S64x768 S4x4096x768 [2] [0] [0, 1] [1] [] []
  dot_S4x4096x768_S32x768_S4x4096x32_2_1_01_0_n_n_wf : DotDims.WF S4x4096x768 S32x768 S4x4096x32 [2] [1] [0, 1] [0] [] []
  dot_S4x4096x32_S32x768_S4x4096x768_2_0_01_1_n_n_wf : DotDims.WF S4x4096x32 S32x768 S4x4096x768 [2] [0] [0, 1] [1] [] []
  dot_S4x4096x768_S16x768_S4x4096x16_2_1_01_0_n_n_wf : DotDims.WF S4x4096x768 S16x768 S4x4096x16 [2] [1] [0, 1] [0] [] []
  dot_S4x4096x16_S16x768_S4x4096x768_2_0_01_1_n_n_wf : DotDims.WF S4x4096x16 S16x768 S4x4096x768 [2] [0] [0, 1] [1] [] []

variable [Facts₀]

def dot_S4x4096x768_S64x768_S4x4096x64_2_1_01_0_n_n : DotDims S4x4096x768 S64x768 S4x4096x64 where
  lhsContracting := [2]
  rhsContracting := [1]
  lhsNonContracting := [0, 1]
  rhsNonContracting := [0]
  lhsBatch := []
  rhsBatch := []
  wf := dot_S4x4096x768_S64x768_S4x4096x64_2_1_01_0_n_n_wf
def dot_S4x4096x64_S64x768_S4x4096x768_2_0_01_1_n_n : DotDims S4x4096x64 S64x768 S4x4096x768 where
  lhsContracting := [2]
  rhsContracting := [0]
  lhsNonContracting := [0, 1]
  rhsNonContracting := [1]
  lhsBatch := []
  rhsBatch := []
  wf := dot_S4x4096x64_S64x768_S4x4096x768_2_0_01_1_n_n_wf
def dot_S4x4096x768_S32x768_S4x4096x32_2_1_01_0_n_n : DotDims S4x4096x768 S32x768 S4x4096x32 where
  lhsContracting := [2]
  rhsContracting := [1]
  lhsNonContracting := [0, 1]
  rhsNonContracting := [0]
  lhsBatch := []
  rhsBatch := []
  wf := dot_S4x4096x768_S32x768_S4x4096x32_2_1_01_0_n_n_wf
def dot_S4x4096x32_S32x768_S4x4096x768_2_0_01_1_n_n : DotDims S4x4096x32 S32x768 S4x4096x768 where
  lhsContracting := [2]
  rhsContracting := [0]
  lhsNonContracting := [0, 1]
  rhsNonContracting := [1]
  lhsBatch := []
  rhsBatch := []
  wf := dot_S4x4096x32_S32x768_S4x4096x768_2_0_01_1_n_n_wf
def dot_S4x4096x768_S16x768_S4x4096x16_2_1_01_0_n_n : DotDims S4x4096x768 S16x768 S4x4096x16 where
  lhsContracting := [2]
  rhsContracting := [1]
  lhsNonContracting := [0, 1]
  rhsNonContracting := [0]
  lhsBatch := []
  rhsBatch := []
  wf := dot_S4x4096x768_S16x768_S4x4096x16_2_1_01_0_n_n_wf
def dot_S4x4096x16_S16x768_S4x4096x768_2_0_01_1_n_n : DotDims S4x4096x16 S16x768 S4x4096x768 where
  lhsContracting := [2]
  rhsContracting := [0]
  lhsNonContracting := [0, 1]
  rhsNonContracting := [1]
  lhsBatch := []
  rhsBatch := []
  wf := dot_S4x4096x16_S16x768_S4x4096x768_2_0_01_1_n_n_wf

class Facts : Prop extends Facts₀ where

variable [Facts]
-- ==== Proof.HostK.lean ====
/-
  The word-level stacked program's buffers as its one pipelined region finds them. Before the region the host reshapes the query
  to 16384 rows, stacks the three key tables, the three value tables and the three salience vectors, pads each stack
  with sixteen zero slots, and reshapes the padded salience to one row of 128; `V0` is core `c`'s valuation after those
  lines, `V` the same read at a buffer.
-/
import proofs.«105692_g850403525362_cont_9to1_m_493_2_alg».proof.Proof.Gen.Kernel.Launch

noncomputable section

namespace Cert.Kernel.Frm

open Idealize.ShloMosaic Idealize.ShloMosaic.TcCoe
open Idealize.SL Idealize.SL.Sem
open Cert.Kernel Cert.Kernel.Gen

variable {F : FTy → Type} [FloatOps F]

/-- The host lines before the region, stretch by stretch. -/
abbrev preOps : List (List (HloOp τ sig (Elt F))) :=
  [hostOps0, hostOps0_1, hostOps0_2, hostOps0_3, hostOps0_4, hostOps0_5, hostOps0_6]

variable (m : (ℓ : Loc nD τ sig) → Buf (Elt F) ℓ)

/-- Core `c`'s buffer contents when the region is entered. -/
abbrev V0 (c : Dev nD) : Valuation τ sig (Elt F) := StableHlo.after (List.flatten (preOps (F := F))) (fun b => m (c, b))
/-- The same read at a TensorCore buffer. -/
abbrev V (c : Dev nD) (b : Ref sig .tc) : Buf (Elt F) ((c : Thread nD τ).loc b) := V0 m c (Proc.devRef .tc b)

end Cert.Kernel.Frm

end
-- ==== Proof.FrameK.lean ====
/-
  The word-level stacked program runs to the end, faults nowhere and leaves its ten argument arrays as launched; and what it leaves
  in its result array is named. The program is: host lines that build the stacked tables, ONE pipelined region over 32
  points (point `t` works on rows 512·t … 512·t + 511 of the query), one reshape after it.

  At a point the body reads four whole blocks — the 512 query rows, the whole stacked keys, the whole stacked values,
  the bias row — and stores one whole block of 512 output rows, a pure function `outBlock` of the four. So the
  region's proof data is: each input window's buffer holds its block of the array as the region found it, the output
  window's buffer holds `outBlock` of those blocks; the body's triple is one symbolic run; and the launch theorem
  for a region followed by host lines gives the run. The argument arrays are written by no host line and staged by no
  output window, so they end as launched.
-/
import proofs.«105692_g850403525362_cont_9to1_m_493_2_alg».proof.Proof.HostK
import proofs.«105692_g850403525362_cont_9to1_m_493_2_alg».proof.Proof.Gen.Kernel.Skeleton
import proofs.«105692_g850403525362_cont_9to1_m_493_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The lines before the region touch TensorCore buffers only. -/
theorem preOps_sub : (preOps (F := F)).Forall fun ops => ops.Forall fun op => op.bufs ⊆ StableHlo.tcRefs τ sig := by
  simp only [preOps, List.Forall]
  exact ⟨hostOps0_sub, hostOps0_1_sub, hostOps0_2_sub, hostOps0_3_sub, hostOps0_4_sub, hostOps0_5_sub, hostOps0_6_sub⟩

/-- They allocate nothing. -/
theorem preOps_fresh : (preOps (F := F)).Forall fun ops => ops.Forall fun op => op.fresh = ∅ := by
  simp only [preOps, hostOps0, hostOps0_1, hostOps0_2, hostOps0_3, hostOps0_4, hostOps0_5, hostOps0_6, List.Forall]; repeat' constructor

/-- Nor does the reshape after the region. -/
theorem hostOps1_fresh : (hostOps1 : List (HloOp τ sig (Elt F))).Forall fun op => op.fresh = ∅ := by
  simp only [List.Forall]; repeat' constructor

/-- The program is its host lines, the region, and the reshape: it reduces to the region continued by the reshape, entered
    at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The reshape after the region touches only buffers the region leaves alone or its arrays. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The host lines before the region write none of the arguments: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg0` is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The host lines before the region write none of the arguments: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg1` is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The host lines before the region write none of the arguments: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg2` is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The host lines before the region write none of the arguments: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg3` is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The host lines before the region write none of the arguments: the region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg4` is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The host lines before the region write none of the arguments: the region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg5` is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The host lines before the region write none of the arguments: the region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg6` is no window's array: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- The host lines before the region write none of the arguments: the region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg7` is no window's array: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- The host lines before the region write none of the arguments: the region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg8` is no window's array: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- The host lines before the region write none of the arguments: the region finds `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg9` is no window's array: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from an earlier point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or kept from an earlier point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or kept from an earlier point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or kept from an earlier point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every buffer outside the region's arrays as the reshape after the region leaves it, the
    ten argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c))⟩) h

/-! ## What the body stores -/

abbrev rQ : Rect S512x768 := Rect.unit (s := S512x768) ![0, 0] S512x768.size inb_S512x768_S512x768_0_0
abbrev rK : Rect S128x768 := Rect.unit (s := S128x768) ![0, 0] S128x768.size inb_S128x768_S128x768_0_0
abbrev rB : Rect S1x128 := Rect.unit (s := S1x128) ![0, 0] S1x128.size inb_S1x128_S1x128_0_0

/-- The value the body stores, from the four blocks it loads: the scores, the first range's weights and the second
    range's shifted scores feed the rest of the arithmetic, which ends in the contraction with the stacked values. -/
def outVal (x0 : Vec F S512x768 .f32) (x1 x2 : Vec F S128x768 .f32) (x3 : Vec F S1x128 .f32) : FVec F S512x768 .f32 :=
  k0_pay1 (k0_pay2 (View.ld x0 rQ) (View.ld x1 rK) (View.ld x3 rB)) (iota .tc S512x128 32 [1] iota_S512x128_d1_w32)
    (k0_pay3 (View.ld x0 rQ) (View.ld x1 rK) (View.ld x3 rB)) (k0_pay4 (View.ld x0 rQ) (View.ld x1 rK) (View.ld x3 rB)) (View.ld x2 rK)

/-- The output window's buffer after the body: its one store, which covers the block. -/
def outBlock (x0 : Vec F S512x768 .f32) (x1 x2 : Vec F S128x768 .f32) (x3 : Vec F S1x128 .f32) : Vec F S512x768 .f32 :=
  View.canon [⟨rQ, outVal x0 x1 x2 x3⟩]

/-- One whole-block store covers the block. -/
theorem cover_out (p0 : Vec F S512x768 .f32) (y : S512x768.Idx) :
    ∃ pc ∈ ([⟨rQ, p0⟩] : List (View.Piece (Elt F) S512x768 .f32)), y ∈ pc.1.set :=
  View.cover_of_tiled [⟨rQ, p0⟩] S512x768.size (by rfl) y

/-! ## The body's triple -/

set_option maxHeartbeats 4000000 in
/-- The body on whole staging buffers — the four inputs' at contents `x0 … x3`, the output's at anything — runs to the
    continuation with the inputs' as they were and the output's at `outBlock` of them. -/
theorem sound_kernel (c : Dev nD) (E : Set ℕ) (i : grid0.Coords)
    (arg1 : Memref sig .tc .vmem S512x768 .f32) (harg1 : arg1.IsWhole) (arg2 : Memref sig .tc .vmem S128x768 .f32) (harg2 : arg2.IsWhole)
    (arg3 : Memref sig .tc .vmem S128x768 .f32) (harg3 : arg3.IsWhole) (arg4 : Memref sig .tc .vmem S1x128 .f32) (harg4 : arg4.IsWhole)
    (arg5 : Memref sig .tc .vmem S512x768 .f32) (harg5 : arg5.IsWhole)
    (x0 : Vec F S512x768 .f32) (x1 x2 : Vec F S128x768 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The region's proof data -/

/-- On core `c`: the arrays as the region finds them; after the body at point `t` each input's buffer at its block, the
    output's at `outBlock` of the four blocks; nothing of its own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and at the end each array of the region holds what the proof
    data says and every other buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.Kernel.Frm

end
-- ==== Proof.HostKI.lean ====
/-
  The stacked program's buffers as its one pipelined region finds them. Before the region the host reshapes the query
  to 16384 rows, stacks the three key tables, the three value tables and the three salience vectors, pads each stack
  with sixteen zero slots, and reshapes the padded salience to one row of 128; `V0` is core `c`'s valuation after those
  lines, `V` the same read at a buffer.
-/
import proofs.«105692_g850403525362_cont_9to1_m_493_2_alg».proof.Proof.Gen.KernelIdeal.Launch

noncomputable section

namespace Cert.KernelIdeal.Frm

open Idealize.ShloMosaic Idealize.ShloMosaic.TcCoe
open Idealize.SL Idealize.SL.Sem
open Cert.KernelIdeal Cert.KernelIdeal.Gen

variable {F : FTy → Type} [FloatOps F] [Named F]

/-- The host lines before the region, stretch by stretch. -/
abbrev preOps : List (List (HloOp τ sig (Elt F))) :=
  [hostOps0, hostOps0_1, hostOps0_2, hostOps0_3, hostOps0_4, hostOps0_5, hostOps0_6]

variable (m : (ℓ : Loc nD τ sig) → Buf (Elt F) ℓ)

/-- Core `c`'s buffer contents when the region is entered. -/
abbrev V0 (c : Dev nD) : Valuation τ sig (Elt F) := StableHlo.after (List.flatten (preOps (F := F))) (fun b => m (c, b))
/-- The same read at a TensorCore buffer. -/
abbrev V (c : Dev nD) (b : Ref sig .tc) : Buf (Elt F) ((c : Thread nD τ).loc b) := V0 m c (Proc.devRef .tc b)

end Cert.KernelIdeal.Frm

end
-- ==== Proof.FrameKI.lean ====
/-
  The stacked program runs to the end, faults nowhere and leaves its ten argument arrays as launched; and what it leaves
  in its result array is named. The program is: host lines that build the stacked tables, ONE pipelined region over 32
  points (point `t` works on rows 512·t … 512·t + 511 of the query), one reshape after it.

  At a point the body reads four whole blocks — the 512 query rows, the whole stacked keys, the whole stacked values,
  the bias row — and stores one whole block of 512 output rows, a pure function `outBlock` of the four. So the
  region's proof data is: each input window's buffer holds its block of the array as the region found it, the output
  window's buffer holds `outBlock` of those blocks; the body's triple is one symbolic run; and the launch theorem
  for a region followed by host lines gives the run. The argument arrays are written by no host line and staged by no
  output window, so they end as launched.
-/
import proofs.«105692_g850403525362_cont_9to1_m_493_2_alg».proof.Proof.HostKI
import proofs.«105692_g850403525362_cont_9to1_m_493_2_alg».proof.Proof.Gen.KernelIdeal.Skeleton
import proofs.«105692_g850403525362_cont_9to1_m_493_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines around the region -/

/-- The lines before the region touch TensorCore buffers only. -/
theorem preOps_sub : (preOps (F := F)).Forall fun ops => ops.Forall fun op => op.bufs ⊆ StableHlo.tcRefs τ sig := by
  simp only [preOps, List.Forall]
  exact ⟨hostOps0_sub, hostOps0_1_sub, hostOps0_2_sub, hostOps0_3_sub, hostOps0_4_sub, hostOps0_5_sub, hostOps0_6_sub⟩

/-- They allocate nothing. -/
theorem preOps_fresh : (preOps (F := F)).Forall fun ops => ops.Forall fun op => op.fresh = ∅ := by
  simp only [preOps, hostOps0, hostOps0_1, hostOps0_2, hostOps0_3, hostOps0_4, hostOps0_5, hostOps0_6, List.Forall]; repeat' constructor

/-- Nor does the reshape after the region. -/
theorem hostOps1_fresh : (hostOps1 : List (HloOp τ sig (Elt F))).Forall fun op => op.fresh = ∅ := by
  simp only [List.Forall]; repeat' constructor

/-- The program is its host lines, the region, and the reshape: it reduces to the region continued by the reshape, entered
    at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The reshape after the region touches only buffers the region leaves alone or its arrays. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The host lines before the region write none of the arguments: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg0` is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The host lines before the region write none of the arguments: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg1` is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The host lines before the region write none of the arguments: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg2` is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The host lines before the region write none of the arguments: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg3` is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The host lines before the region write none of the arguments: the region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg4` is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The host lines before the region write none of the arguments: the region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg5` is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The host lines before the region write none of the arguments: the region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg6` is no window's array: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- The host lines before the region write none of the arguments: the region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg7` is no window's array: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- The host lines before the region write none of the arguments: the region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg8` is no window's array: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- The host lines before the region write none of the arguments: the region finds `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [preOps, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region, and `main_arg9` is no window's array: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from an earlier point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or kept from an earlier point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or kept from an earlier point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or kept from an earlier point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every buffer outside the region's arrays as the reshape after the region leaves it, the
    ten argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c))⟩) h

/-! ## What the body stores -/

abbrev rQ : Rect S512x768 := Rect.unit (s := S512x768) ![0, 0] S512x768.size inb_S512x768_S512x768_0_0
abbrev rK : Rect S128x768 := Rect.unit (s := S128x768) ![0, 0] S128x768.size inb_S128x768_S128x768_0_0
abbrev rB : Rect S1x128 := Rect.unit (s := S1x128) ![0, 0] S1x128.size inb_S1x128_S1x128_0_0

/-- The value the body stores, from the four blocks it loads: the scores, the first range's weights and the second
    range's shifted scores feed the rest of the arithmetic, which ends in the contraction with the stacked values. -/
def outVal (x0 : Vec F S512x768 .f32) (x1 x2 : Vec F S128x768 .f32) (x3 : Vec F S1x128 .f32) : FVec F S512x768 .f32 :=
  k0_pay1 (k0_pay2 (View.ld x0 rQ) (View.ld x1 rK) (View.ld x3 rB)) (iota .tc S512x128 32 [1] iota_S512x128_d1_w32)
    (k0_pay3 (View.ld x0 rQ) (View.ld x1 rK) (View.ld x3 rB)) (k0_pay4 (View.ld x0 rQ) (View.ld x1 rK) (View.ld x3 rB)) (View.ld x2 rK)

/-- The output window's buffer after the body: its one store, which covers the block. -/
def outBlock (x0 : Vec F S512x768 .f32) (x1 x2 : Vec F S128x768 .f32) (x3 : Vec F S1x128 .f32) : Vec F S512x768 .f32 :=
  View.canon [⟨rQ, outVal x0 x1 x2 x3⟩]

/-- One whole-block store covers the block. -/
theorem cover_out (p0 : Vec F S512x768 .f32) (y : S512x768.Idx) :
    ∃ pc ∈ ([⟨rQ, p0⟩] : List (View.Piece (Elt F) S512x768 .f32)), y ∈ pc.1.set :=
  View.cover_of_tiled [⟨rQ, p0⟩] S512x768.size (by rfl) y

/-! ## The body's triple -/

set_option maxHeartbeats 4000000 in
/-- The body on whole staging buffers — the four inputs' at contents `x0 … x3`, the output's at anything — runs to the
    continuation with the inputs' as they were and the output's at `outBlock` of them. -/
theorem sound_kernel (c : Dev nD) (E : Set ℕ) (i : grid0.Coords)
    (arg1 : Memref sig .tc .vmem S512x768 .f32) (harg1 : arg1.IsWhole) (arg2 : Memref sig .tc .vmem S128x768 .f32) (harg2 : arg2.IsWhole)
    (arg3 : Memref sig .tc .vmem S128x768 .f32) (harg3 : arg3.IsWhole) (arg4 : Memref sig .tc .vmem S1x128 .f32) (harg4 : arg4.IsWhole)
    (arg5 : Memref sig .tc .vmem S512x768 .f32) (harg5 : arg5.IsWhole)
    (x0 : Vec F S512x768 .f32) (x1 x2 : Vec F S128x768 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock x0 x1 x2 x3)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The region's proof data -/

/-- On core `c`: the arrays as the region finds them; after the body at point `t` each input's buffer at its block, the
    output's at `outBlock` of the four blocks; nothing of its own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and at the end each array of the region holds what the proof
    data says and every other buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.KernelIdeal.Frm

end
-- ==== Proof.Spec.lean ====
/-
  The mathematics of the certificate, stated over no program: a three-level memory read. A query row is scored against
  three tables of 64, 32 and 16 keys (dot product over 768 features, scaled, plus a per-slot salience), each level's
  scores go through a softmax, the weights average that level's value rows, and the three reads are added with weight
  one third each.

  Two spellings of one function on the extended reals are defined here.
  * `refOut`: the three levels one after the other — divide the dot product by `sqrtD`, add the salience, subtract
    the row maximum, exponentiate, normalise by the row sum, contract with the values, scale by `third`, accumulate
    from zero.
  * `kerOut`: ONE table of 128 slots — the three tables stacked, sixteen zero slots at the end — scored in one
    contraction and scaled by `invSqrtD`; for each of the three column ranges the scores outside the range are replaced
    by `⊥` before the same softmax over all 128 columns, the three weight rows are added, scaled by `third`, and
    contracted with the stacked values.
  `invSqrtD` is the reciprocal of `sqrtD`, so the scores agree; `exp ⊥ = 0` removes the columns outside a range from
  every sum; what is left differs by the order of finite sums and by moving the factor `third` across them, which is
  where finiteness of the inputs is used.
-/
import Idealize.ShloMosaic.PureOps.Ideal
import Idealize.ShloMosaic.PureOps.Ideal.Laws

noncomputable section

open scoped BigOperators

namespace Cert.HMem

open Idealize.ShloMosaic

/-- The divisor of the scores, √768 as the reference's program carries it: the value of the word `0x41DDB3D7`. -/
def sqrtD : EReal := Ideal.ofBits .f32 0x41DDB3D7#32
/-- The scale the one-table form multiplies by: the exact reciprocal of that value. -/
def invSqrtD : EReal := ((524288 / 14529495 : ℝ) : EReal)
/-- The weight of each level: the value of the word `0x3EAAAAAB`, on both sides. -/
def third : EReal := Ideal.ofBits .f32 0x3EAAAAAB#32

/-! ## The three levels one after the other -/

/-- A level's score of slot `j`: the query row against key row `j`, over `sqrtD`, plus the slot's salience. -/
def refScore {n : Nat} (qrow : Fin 768 → EReal) (k : Fin n → Fin 768 → EReal) (s : Fin n → EReal) (j : Fin n) : EReal :=
  Ideal.div (∑ e : Fin 768, qrow e * k j e) sqrtD + s j

/-- The row maximum as the softmax takes it: the fold of `max` from `⊥`, joined once more with `⊥`. -/
def refMax {n : Nat} (s : Fin n → EReal) : EReal := max ⊥ ((Finset.univ : Finset (Fin n)).fold max ⊥ s)

/-- A softmax weight: the shifted exponential over the row's sum of them (the sum accumulated from zero). -/
def refAttn {n : Nat} (s : Fin n → EReal) (j : Fin n) : EReal :=
  Ideal.div (Ideal.exp (s j - refMax s)) (0 + ∑ i : Fin n, Ideal.exp (s i - refMax s))

/-- A level's read at feature `d`: the weights against the value rows. -/
def refRead {n : Nat} (s : Fin n → EReal) (v : Fin n → Fin 768 → EReal) (d : Fin 768) : EReal :=
  ∑ j : Fin n, refAttn s j * v j d

/-- One level's contribution for a query row. -/
def refLevel {n : Nat} (qrow : Fin 768 → EReal) (k : Fin n → Fin 768 → EReal) (v : Fin n → Fin 768 → EReal) (s : Fin n → EReal)
    (d : Fin 768) : EReal :=
  refRead (refScore qrow k s) v d * third

/-- The three levels accumulated from zero, in order. -/
def refOut (qrow : Fin 768 → EReal)
    (k0 v0 : Fin 64 → Fin 768 → EReal) (s0 : Fin 64 → EReal)
    (k1 v1 : Fin 32 → Fin 768 → EReal) (s1 : Fin 32 → EReal)
    (k2 v2 : Fin 16 → Fin 768 → EReal) (s2 : Fin 16 → EReal) (d : Fin 768) : EReal :=
  ((0 + refLevel qrow k0 v0 s0 d) + refLevel qrow k1 v1 s1 d) + refLevel qrow k2 v2 s2 d

/-! ## One stacked table -/

/-- Three tables of 64, 32 and 16 rows stacked into 128 rows, the last sixteen zero. -/
def stack2 (a0 : Fin 64 → Fin 768 → EReal) (a1 : Fin 32 → Fin 768 → EReal) (a2 : Fin 16 → Fin 768 → EReal)
    (j : Fin 128) (e : Fin 768) : EReal :=
  if h0 : j.val < 64 then a0 ⟨j.val, h0⟩ e
  else if h1 : j.val < 96 then a1 ⟨j.val - 64, by omega⟩ e
  else if h2 : j.val < 112 then a2 ⟨j.val - 96, by omega⟩ e
  else 0

/-- The same stacking of three salience vectors. -/
def stack1 (a0 : Fin 64 → EReal) (a1 : Fin 32 → EReal) (a2 : Fin 16 → EReal) (j : Fin 128) : EReal :=
  if h0 : j.val < 64 then a0 ⟨j.val, h0⟩
  else if h1 : j.val < 96 then a1 ⟨j.val - 64, by omega⟩
  else if h2 : j.val < 112 then a2 ⟨j.val - 96, by omega⟩
  else 0

/-- The stacked score of slot `j`: the query row against row `j`, times `invSqrtD`, plus the stacked salience. -/
def kerScore (qrow : Fin 768 → EReal) (K : Fin 128 → Fin 768 → EReal) (B : Fin 128 → EReal) (j : Fin 128) : EReal :=
  (∑ e : Fin 768, qrow e * K j e) * invSqrtD + B j

/-- A score row with the columns outside `[lo, hi)` replaced by `⊥`. -/
def masked (lo hi : Nat) (s : Fin 128 → EReal) (j : Fin 128) : EReal :=
  if lo ≤ j.val ∧ j.val < hi then s j else ⊥

/-- The softmax of the masked row over all 128 columns. -/
def segW (lo hi : Nat) (s : Fin 128 → EReal) (j : Fin 128) : EReal :=
  Ideal.div (Ideal.exp (masked lo hi s j - (Finset.univ : Finset (Fin 128)).fold max ⊥ (masked lo hi s)))
    (∑ i : Fin 128, Ideal.exp (masked lo hi s i - (Finset.univ : Finset (Fin 128)).fold max ⊥ (masked lo hi s)))

/-- The three ranges' weight rows added from zero. -/
def kerP (s : Fin 128 → EReal) (j : Fin 128) : EReal :=
  ((0 + segW 0 64 s j) + segW 64 96 s j) + segW 96 112 s j

/-- The stacked read at feature `d`. -/
def kerOut (qrow : Fin 768 → EReal) (K : Fin 128 → Fin 768 → EReal) (B : Fin 128 → EReal) (V : Fin 128 → Fin 768 → EReal)
    (d : Fin 768) : EReal :=
  ∑ j : Fin 128, (kerP (kerScore qrow K B) j * third) * V j d

/-! ## The inputs, and what "finite" means for them -/

/-- The ten input arrays by coordinates. -/
structure Inp where
  q : Fin 4 → Fin 4096 → Fin 768 → EReal
  k0 : Fin 64 → Fin 768 → EReal
  v0 : Fin 64 → Fin 768 → EReal
  s0 : Fin 64 → EReal
  k1 : Fin 32 → Fin 768 → EReal
  v1 : Fin 32 → Fin 768 → EReal
  s1 : Fin 32 → EReal
  k2 : Fin 16 → Fin 768 → EReal
  v2 : Fin 16 → Fin 768 → EReal
  s2 : Fin 16 → EReal

/-- Every entry of every input is a real number. -/
structure Inp.Finite (x : Inp) : Prop where
  q : ∀ b t e, ∃ r : ℝ, x.q b t e = r
  k0 : ∀ j e, ∃ r : ℝ, x.k0 j e = r
  v0 : ∀ j e, ∃ r : ℝ, x.v0 j e = r
  s0 : ∀ j, ∃ r : ℝ, x.s0 j = r
  k1 : ∀ j e, ∃ r : ℝ, x.k1 j e = r
  v1 : ∀ j e, ∃ r : ℝ, x.v1 j e = r
  s1 : ∀ j, ∃ r : ℝ, x.s1 j = r
  k2 : ∀ j e, ∃ r : ℝ, x.k2 j e = r
  v2 : ∀ j e, ∃ r : ℝ, x.v2 j e = r
  s2 : ∀ j, ∃ r : ℝ, x.s2 j = r

/-- The result of the level-by-level form at `(b, t, d)`. -/
def Inp.ref (x : Inp) (b : Fin 4) (t : Fin 4096) (d : Fin 768) : EReal :=
  refOut (x.q b t) x.k0 x.v0 x.s0 x.k1 x.v1 x.s1 x.k2 x.v2 x.s2 d

/-- The result of the stacked form at `(b, t, d)`. -/
def Inp.ker (x : Inp) (b : Fin 4) (t : Fin 4096) (d : Fin 768) : EReal :=
  kerOut (x.q b t) (stack2 x.k0 x.k1 x.k2) (stack1 x.s0 x.s1 x.s2) (stack2 x.v0 x.v1 x.v2) d

end Cert.HMem

end
-- ==== Proof.InpKI.lean ====
/-
  The stacked program's ten argument arrays, as launched on core `c`, read by coordinates: the inputs of the
  mathematical statement.
-/
import proofs.«105692_g850403525362_cont_9to1_m_493_2_alg».proof.KernelIdeal
import proofs.«105692_g850403525362_cont_9to1_m_493_2_alg».proof.Proof.Spec
import Idealize.ShloMosaic.Lib.ValueIdx

noncomputable section

namespace Cert.KernelIdeal.Frm

open Idealize.ShloMosaic Idealize.ShloMosaic.TcCoe Idealize.ShloMosaic.ValueIdx
open Idealize.SL Idealize.SL.Sem
open Cert.KernelIdeal

/-- The launch memory's argument arrays on core `c` as the statement's inputs. -/
def inp (m : (ℓ : Loc nD τ sig) → Buf (Elt Ideal) ℓ) (c : Dev nD) : Cert.HMem.Inp where
  q b t e := (m ((c.tc : Thread nD τ).loc main_arg0) : S4x4096x768.Idx → EReal) (ix3 b t e)
  k0 j e := (m ((c.tc : Thread nD τ).loc main_arg1) : S64x768.Idx → EReal) (ix2 j e)
  v0 j e := (m ((c.tc : Thread nD τ).loc main_arg2) : S64x768.Idx → EReal) (ix2 j e)
  s0 j := (m ((c.tc : Thread nD τ).loc main_arg3) : S64.Idx → EReal) (ix1 j)
  k1 j e := (m ((c.tc : Thread nD τ).loc main_arg4) : S32x768.Idx → EReal) (ix2 j e)
  v1 j e := (m ((c.tc : Thread nD τ).loc main_arg5) : S32x768.Idx → EReal) (ix2 j e)
  s1 j := (m ((c.tc : Thread nD τ).loc main_arg6) : S32.Idx → EReal) (ix1 j)
  k2 j e := (m ((c.tc : Thread nD τ).loc main_arg7) : S16x768.Idx → EReal) (ix2 j e)
  v2 j e := (m ((c.tc : Thread nD τ).loc main_arg8) : S16x768.Idx → EReal) (ix2 j e)
  s2 j := (m ((c.tc : Thread nD τ).loc main_arg9) : S16.Idx → EReal) (ix1 j)

end Cert.KernelIdeal.Frm

end
-- ==== Proof.HostValKI.lean ====
/-
  The stacked program's four region inputs by coordinates. Before its one region the host reshapes the query of
  4 × 4096 rows to 16384 rows, lays the three key tables of 64, 32 and 16 rows end to end and pads the 112 rows to 128
  with the integer zero converted to a real, does the same with the three value tables and with the three salience
  vectors, and reshapes the padded salience to one row of 128. Each of the four buffers is first written as those
  operations' term of the argument arrays, and that term is then read at an index: a reshape keeps the row-major
  position, a padded array reads its operand inside the operand's extent and the padding value outside it, and an
  end-to-end stack reads the piece whose span holds the coordinate, at the coordinate less the extents before it. The
  result is the statement's stacked tables: rows 0 to 63 the first table, 64 to 95 the second, 96 to 111 the third,
  112 to 127 zero.
-/
import proofs.«105692_g850403525362_cont_9to1_m_493_2_alg».proof.Proof.HostKI
import proofs.«105692_g850403525362_cont_9to1_m_493_2_alg».proof.Proof.InpKI
import Idealize.ShloMosaic.Lib.StableHlo.Run
import Idealize.ShloMosaic.Lib.Pipeline.Value
import Idealize.ShloMosaic.Lib.ValueLayout
import Idealize.ShloMosaic.Lib.ValueIdx
import Idealize.ShloMosaic.Lib.KernelVsHost

noncomputable section

namespace Cert.KernelIdeal.Frm

open Cert.KernelIdeal Cert.KernelIdeal.Gen Cert.HMem
open Idealize.ShloMosaic Idealize.ShloMosaic.TcCoe Idealize.ShloMosaic.ValueIdx
open Idealize.SL Idealize.SL.Sem

variable (m : (ℓ : Loc nD τ sig) → Buf (Elt Ideal) ℓ)

/-! ## The buffers as terms of the argument arrays -/

/-- The query buffer is the query array reshaped to 16384 rows. -/
theorem V_main_v0 (c : Dev nD) :
    (V m c main_v0 : S16384x768.Idx → EReal)
      = shapeCast S16384x768 (m ((c.tc : Thread nD τ).loc main_arg0) : S4x4096x768.Idx → EReal)
          shapeCasts_S4x4096x768_S16384x768 := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results
  rfl

/-- The key buffer is the three key tables laid end to end along the rows, then sixteen rows of the converted
    integer zero. -/
theorem V_main_v3 (c : Dev nD) :
    (V m c main_v3 : S128x768.Idx → EReal)
      = pad S128x768 ![0, 0] ![16, 0] ![0, 0]
          (concatenate S112x768 0
            [⟨S64x768, (m ((c.tc : Thread nD τ).loc main_arg1) : S64x768.Idx → EReal)⟩,
             ⟨S32x768, (m ((c.tc : Thread nD τ).loc main_arg4) : S32x768.Idx → EReal)⟩,
             ⟨S16x768, (m ((c.tc : Thread nD τ).loc main_arg7) : S16x768.Idx → EReal)⟩]
            concatenates_S64x768_S32x768_S16x768_S112x768_d0)
          (sitofp (F := Ideal) .f32 (constantI S_ 32 0#32)) pads_S112x768_S128x768_0160_000 h_S_ := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results
  rfl

/-- The value buffer is the three value tables laid end to end along the rows, then sixteen rows of the converted
    integer zero. -/
theorem V_main_v4 (c : Dev nD) :
    (V m c main_v4 : S128x768.Idx → EReal)
      = pad S128x768 ![0, 0] ![16, 0] ![0, 0]
          (concatenate S112x768 0
            [⟨S64x768, (m ((c.tc : Thread nD τ).loc main_arg2) : S64x768.Idx → EReal)⟩,
             ⟨S32x768, (m ((c.tc : Thread nD τ).loc main_arg5) : S32x768.Idx → EReal)⟩,
             ⟨S16x768, (m ((c.tc : Thread nD τ).loc main_arg8) : S16x768.Idx → EReal)⟩]
            concatenates_S64x768_S32x768_S16x768_S112x768_d0)
          (sitofp (F := Ideal) .f32 (constantI S_ 32 0#32)) pads_S112x768_S128x768_0160_000 h_S_ := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results
  rfl

/-- The salience buffer is the three salience vectors laid end to end, then sixteen entries of the converted integer
    zero, as one row of 128. -/
theorem V_main_v7 (c : Dev nD) :
    (V m c main_v7 : S1x128.Idx → EReal)
      = shapeCast S1x128
          (pad S128 ![0] ![16] ![0]
            (concatenate S112 0
              [⟨S64, (m ((c.tc : Thread nD τ).loc main_arg3) : S64.Idx → EReal)⟩,
               ⟨S32, (m ((c.tc : Thread nD τ).loc main_arg6) : S32.Idx → EReal)⟩,
               ⟨S16, (m ((c.tc : Thread nD τ).loc main_arg9) : S16.Idx → EReal)⟩]
              concatenates_S64_S32_S16_S112_d0)
            (sitofp (F := Ideal) .f32 (constantI S_ 32 0#32)) pads_S112_S128_0160 h_S_)
          shapeCasts_S128_S1x128 := by
  dsimp only [V, V0]
  simp only [preOps, hostOps0, hostOps0_1, hostOps0_2, hostOps0_3, hostOps0_4, hostOps0_5, hostOps0_6,
    List.flatten_cons, List.flatten_nil, List.append_nil, List.cons_append, List.nil_append]
  after_results
  rfl

/-! ## The operations read at an index -/

/-- The query reshaped to 16384 rows reads, at row `b * 4096 + t`, the query at `(b, t)`: the two indices have one
    row-major position. -/
theorem reshape_rows_apply (x : S4x4096x768.Idx → EReal) (h : S4x4096x768.ShapeCasts S16384x768)
    (b : Fin 4) (t : Fin 4096) (e : Fin 768) :
    shapeCast S16384x768 x h (ix2 (⟨b.val * 4096 + t.val, by omega⟩ : Fin 16384) e) = x (ix3 b t e) :=
  shapeCast_apply x h _ _ (by
    rw [Shape.rowMajor_val_three, Shape.rowMajor_val_two]
    rfl)

/-- The padding value: the integer zero converted is the real zero. -/
theorem padValue_eq_zero (i : S_.Idx) : (sitofp (F := Ideal) .f32 (constantI S_ 32 0#32) : S_.Idx → EReal) i = 0 := by
  show ((((0#32 : BitVec 32).toInt : ℝ) : EReal)) = 0
  simp

/-- Three tables of 64, 32 and 16 rows laid end to end and padded with sixteen rows of the converted integer zero,
    read at row `j`: the table whose span of rows holds `j`, at `j` less the rows before it; zero from row 112 on. -/
theorem padStack2_apply (x0 : S64x768.Idx → EReal) (x1 : S32x768.Idx → EReal) (x2 : S16x768.Idx → EReal)
    (hc : Shape.Concatenates [S64x768, S32x768, S16x768] S112x768 0)
    (hp : S112x768.Pads (![0, 0] : Fin 2 → Nat) ![16, 0] ![0, 0] S128x768) (hu : 0 < S_.numel)
    (j : Fin 128) (e : Fin 768) :
    pad S128x768 ![0, 0] ![16, 0] ![0, 0]
        (concatenate S112x768 0 [⟨S64x768, x0⟩, ⟨S32x768, x1⟩, ⟨S16x768, x2⟩] hc)
        (sitofp (F := Ideal) .f32 (constantI S_ 32 0#32)) hp hu (ix2 j e)
      = stack2 (fun a d => x0 (ix2 a d)) (fun a d => x1 (ix2 a d)) (fun a d => x2 (ix2 a d)) j e := by
  unfold stack2
  by_cases h3 : j.val < 112
  · -- a row of one of the three tables: the padded array reads the stack there
    have inside : pad S128x768 ![0, 0] ![16, 0] ![0, 0]
          (concatenate S112x768 0 [⟨S64x768, x0⟩, ⟨S32x768, x1⟩, ⟨S16x768, x2⟩] hc)
          (sitofp (F := Ideal) .f32 (constantI S_ 32 0#32)) hp hu (ix2 j e)
        = concatenate S112x768 0 [⟨S64x768, x0⟩, ⟨S32x768, x1⟩, ⟨S16x768, x2⟩] hc (ix2 (⟨j.val, h3⟩ : Fin 112) e) :=
      pad_apply_of_inside _ _ _ _ _ hp hu (ix2 j e) (ix2 (⟨j.val, h3⟩ : Fin 112) e) (fun a => match a with
        | ⟨0, _⟩ => by show j.val = 0 + j.val * (0 + 1); omega
        | ⟨1, _⟩ => by show e.val = 0 + e.val * (0 + 1); omega)
    rw [inside]
    by_cases h0 : j.val < 64
    · rw [dif_pos h0]
      exact concatenate_apply_piece (t := S112x768) 0 [⟨S64x768, x0⟩, ⟨S32x768, x1⟩, ⟨S16x768, x2⟩] hc
        (ix2 (⟨j.val, h3⟩ : Fin 112) e) 0 (by show (0 : Nat) < 3; omega) S64x768 x0 rfl rfl 0 rfl (ix2 (⟨j.val, h0⟩ : Fin 64) e)
        (fun b hb => match b, hb with
          | ⟨0, _⟩, hb => (hb rfl).elim
          | ⟨1, _⟩, _ => rfl)
        (by show 0 + j.val = j.val; omega)
    · rw [dif_neg h0]
      by_cases h1 : j.val < 96
      · rw [dif_pos h1]
        exact concatenate_apply_piece (t := S112x768) 0 [⟨S64x768, x0⟩, ⟨S32x768, x1⟩, ⟨S16x768, x2⟩] hc
          (ix2 (⟨j.val, h3⟩ : Fin 112) e) 1 (by show (1 : Nat) < 3; omega) S32x768 x1 rfl rfl 64 rfl
          (ix2 (⟨j.val - 64, by omega⟩ : Fin 32) e)
          (fun b hb => match b, hb with
            | ⟨0, _⟩, hb => (hb rfl).elim
            | ⟨1, _⟩, _ => rfl)
          (by show 64 + (j.val - 64) = j.val; omega)
      · rw [dif_neg h1, dif_pos h3]
        exact concatenate_apply_piece (t := S112x768) 0 [⟨S64x768, x0⟩, ⟨S32x768, x1⟩, ⟨S16x768, x2⟩] hc
          (ix2 (⟨j.val, h3⟩ : Fin 112) e) 2 (by show (2 : Nat) < 3; omega) S16x768 x2 rfl rfl 96 rfl
          (ix2 (⟨j.val - 96, by omega⟩ : Fin 16) e)
          (fun b hb => match b, hb with
            | ⟨0, _⟩, hb => (hb rfl).elim
            | ⟨1, _⟩, _ => rfl)
          (by show 96 + (j.val - 96) = j.val; omega)
  · -- a padding row
    rw [dif_neg (by omega), dif_neg (by omega), dif_neg h3]
    refine (pad_apply_of_not_inside _ _ _ _ _ hp hu (ix2 j e) (⟨0, by decide⟩ : Fin 2) ?_).trans (padValue_eq_zero _)
    show ¬(0 ≤ j.val ∧ (j.val - 0) % (0 + 1) = 0 ∧ (j.val - 0) / (0 + 1) < 112)
    omega

/-- Three vectors of 64, 32 and 16 entries laid end to end and padded with sixteen entries of the converted integer
    zero, read at entry `j`: the vector whose span holds `j`, at `j` less the entries before it; zero from 112 on. -/
theorem padStack1_apply (x0 : S64.Idx → EReal) (x1 : S32.Idx → EReal) (x2 : S16.Idx → EReal)
    (hc : Shape.Concatenates [S64, S32, S16] S112 0)
    (hp : S112.Pads (![0] : Fin 1 → Nat) ![16] ![0] S128) (hu : 0 < S_.numel) (j : Fin 128) :
    pad S128 ![0] ![16] ![0]
        (concatenate S112 0 [⟨S64, x0⟩, ⟨S32, x1⟩, ⟨S16, x2⟩] hc)
        (sitofp (F := Ideal) .f32 (constantI S_ 32 0#32)) hp hu (ix1 j)
      = stack1 (fun a => x0 (ix1 a)) (fun a => x1 (ix1 a)) (fun a => x2 (ix1 a)) j := by
  unfold stack1
  by_cases h3 : j.val < 112
  · -- an entry of one of the three vectors: the padded vector reads the stack there
    have inside : pad S128 ![0] ![16] ![0]
          (concatenate S112 0 [⟨S64, x0⟩, ⟨S32, x1⟩, ⟨S16, x2⟩] hc)
          (sitofp (F := Ideal) .f32 (constantI S_ 32 0#32)) hp hu (ix1 j)
        = concatenate S112 0 [⟨S64, x0⟩, ⟨S32, x1⟩, ⟨S16, x2⟩] hc (ix1 (⟨j.val, h3⟩ : Fin 112)) :=
      pad_apply_of_inside _ _ _ _ _ hp hu (ix1 j) (ix1 (⟨j.val, h3⟩ : Fin 112)) (fun a => match a with
        | ⟨0, _⟩ => by show j.val = 0 + j.val * (0 + 1); omega)
    rw [inside]
    by_cases h0 : j.val < 64
    · rw [dif_pos h0]
      exact concatenate_apply_piece (t := S112) 0 [⟨S64, x0⟩, ⟨S32, x1⟩, ⟨S16, x2⟩] hc
        (ix1 (⟨j.val, h3⟩ : Fin 112)) 0 (by show (0 : Nat) < 3; omega) S64 x0 rfl rfl 0 rfl (ix1 (⟨j.val, h0⟩ : Fin 64))
        (fun b hb => match b, hb with
          | ⟨0, _⟩, hb => (hb rfl).elim)
        (by show 0 + j.val = j.val; omega)
    · rw [dif_neg h0]
      by_cases h1 : j.val < 96
      · rw [dif_pos h1]
        exact concatenate_apply_piece (t := S112) 0 [⟨S64, x0⟩, ⟨S32, x1⟩, ⟨S16, x2⟩] hc
          (ix1 (⟨j.val, h3⟩ : Fin 112)) 1 (by show (1 : Nat) < 3; omega) S32 x1 rfl rfl 64 rfl
          (ix1 (⟨j.val - 64, by omega⟩ : Fin 32))
          (fun b hb => match b, hb with
            | ⟨0, _⟩, hb => (hb rfl).elim)
          (by show 64 + (j.val - 64) = j.val; omega)
      · rw [dif_neg h1, dif_pos h3]
        exact concatenate_apply_piece (t := S112) 0 [⟨S64, x0⟩, ⟨S32, x1⟩, ⟨S16, x2⟩] hc
          (ix1 (⟨j.val, h3⟩ : Fin 112)) 2 (by show (2 : Nat) < 3; omega) S16 x2 rfl rfl 96 rfl
          (ix1 (⟨j.val - 96, by omega⟩ : Fin 16))
          (fun b hb => match b, hb with
            | ⟨0, _⟩, hb => (hb rfl).elim)
          (by show 96 + (j.val - 96) = j.val; omega)
  · -- a padding entry
    rw [dif_neg (by omega), dif_neg (by omega), dif_neg h3]
    refine (pad_apply_of_not_inside _ _ _ _ _ hp hu (ix1 j) (⟨0, by decide⟩ : Fin 1) ?_).trans (padValue_eq_zero _)
    show ¬(0 ≤ j.val ∧ (j.val - 0) % (0 + 1) = 0 ∧ (j.val - 0) / (0 + 1) < 112)
    omega

/-! ## The buffers by coordinates -/

/-- The query buffer at row `b * 4096 + t` holds the query at `(b, t)`. -/
theorem V_query (c : Dev nD) (b : Fin 4) (t : Fin 4096) (e : Fin 768) :
    (V m c main_v0 : S16384x768.Idx → EReal) (ix2 (⟨b.val * 4096 + t.val, by omega⟩ : Fin 16384) e) = (inp m c).q b t e :=
  (congrFun (V_main_v0 m c) _).trans (reshape_rows_apply _ _ b t e)

/-- The key buffer is the three key tables stacked, the last sixteen rows zero. -/
theorem V_keys (c : Dev nD) (j : Fin 128) (e : Fin 768) :
    (V m c main_v3 : S128x768.Idx → EReal) (ix2 j e) = stack2 (inp m c).k0 (inp m c).k1 (inp m c).k2 j e :=
  (congrFun (V_main_v3 m c) _).trans (padStack2_apply _ _ _ _ _ _ j e)

/-- The value buffer is the three value tables stacked, the last sixteen rows zero. -/
theorem V_values (c : Dev nD) (j : Fin 128) (e : Fin 768) :
    (V m c main_v4 : S128x768.Idx → EReal) (ix2 j e) = stack2 (inp m c).v0 (inp m c).v1 (inp m c).v2 j e :=
  (congrFun (V_main_v4 m c) _).trans (padStack2_apply _ _ _ _ _ _ j e)

/-- The salience buffer, one row of 128, is the three salience vectors stacked, the last sixteen entries zero. -/
theorem V_bias (c : Dev nD) (j : Fin 128) :
    (V m c main_v7 : S1x128.Idx → EReal) (ix2 (0 : Fin 1) j) = stack1 (inp m c).s0 (inp m c).s1 (inp m c).s2 j :=
  (congrFun (V_main_v7 m c) _).trans
    ((shapeCast_a_1a_apply _ _ (0 : Fin 1) j).trans (padStack1_apply _ _ _ _ _ _ j))

end Cert.KernelIdeal.Frm

end
-- ==== Proof.MaskAt.lean ====
/-
  The stacked table's masks, row maxima, row sums and column broadcasts, read at one entry.

  A column range `[lo, hi)` of the 128 stacked slots is selected by two signed comparisons of the column number
  with the two bounds; the entries outside the range are replaced by the constant named "neg_big", which denotes `⊥`
  on the extended reals. Read at row `r` and column `j` the selected array is the row's entry when `lo ≤ j < hi`
  and `⊥` otherwise: `masked lo hi` of the row. The maximum of a row taken from the word of `-∞` is the fold of
  `max` from `⊥` over the row's 128 entries, the sum of a row taken from the zero word is the sum of its 128
  entries, and a vector of 512 row values viewed as a column and broadcast over the 128 columns reads, at `(r, j)`,
  the value of row `r`.
-/
import proofs.«105692_g850403525362_cont_9to1_m_493_2_alg».proof.Proof.Gen.KernelIdeal.Skeleton
import proofs.«105692_g850403525362_cont_9to1_m_493_2_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

noncomputable section

open scoped BigOperators

namespace Cert.KernelIdeal.Pay

open Cert.KernelIdeal Cert.KernelIdeal.Gen Cert.HMem Idealize.ShloMosaic Idealize.ShloMosaic.ValueIdx

/-! ## The masking constant -/

/-- The constant named "neg_big" denotes `⊥` on the extended reals, by the certificate's table of named constants. -/
theorem neg_big_eq : Named.named (F := Ideal) κ "neg_big" (φ := .f32) 0xF149F2CA#32 = (⊥ : EReal) :=
  IdealRules.named_const.ideal_named_scalar _ _ _ _ rfl

/-! ## A column range decided by two signed comparisons -/

/-- A natural number up to 128 is the value of its 32-bit word. -/
theorem toNat_ofNat_le128 (n : Nat) (h : n ≤ 128) : (BitVec.ofNat 32 n).toNat = n := by
  rw [BitVec.toNat_ofNat]
  exact Nat.mod_eq_of_lt (by omega)

/-- For a column number `n < 128` and bounds up to 128, the conjunction of the signed comparisons `n ≥ lo` and
    `n < hi` of the 32-bit words is the bit `1` exactly when `lo ≤ n < hi`: all three words are non-negative as
    signed numbers, so the signed order is the order of the naturals. -/
theorem range_bit (lo hi n : Nat) (hlo : lo ≤ 128) (hhi : hi ≤ 128) (hn : n < 128) :
    IntOp.andi (IntOp.cmpi .sge (BitVec.ofNat 32 n) (BitVec.ofNat 32 lo))
        (IntOp.cmpi .slt (BitVec.ofNat 32 n) (BitVec.ofNat 32 hi)) = 1#1
      ↔ lo ≤ n ∧ n < hi := by
  have hn' := toNat_ofNat_le128 n (by omega)
  have hl' := toNat_ofNat_le128 lo hlo
  have hh' := toNat_ofNat_le128 hi hhi
  have hge := StableHlo.Predicate.sge_iff_toNat (a := BitVec.ofNat 32 n) (b := BitVec.ofNat 32 lo)
    (by rw [hn']; omega) (by rw [hl']; omega)
  have hlt := StableHlo.Predicate.slt_iff_toNat (a := BitVec.ofNat 32 n) (b := BitVec.ofNat 32 hi)
    (by rw [hn']; omega) (by rw [hh']; omega)
  rw [hn', hl'] at hge
  rw [hn', hh'] at hlt
  rw [← hge, ← hlt]
  generalize IntOp.cmpi .sge (BitVec.ofNat 32 n) (BitVec.ofNat 32 lo) = x
  generalize IntOp.cmpi .slt (BitVec.ofNat 32 n) (BitVec.ofNat 32 hi) = y
  rcases BitVec.eq_zero_or_eq_one x with rfl | rfl <;> rcases BitVec.eq_zero_or_eq_one y with rfl | rfl <;> decide

/-- THE MASK AT AN ENTRY: the array that keeps `v` on the columns `lo ≤ j < hi` and holds the masking constant on
    the others reads, at `(r, j)`, the masked row `r` of `v` at column `j`. -/
theorem masked_select (lo hi : Nat) (hlo : lo ≤ 128) (hhi : hi ≤ 128) (v : FVec Ideal S512x128 .f32) (r : Fin 512) (j : Fin 128) :
    select (andi (cmpi .sge (iota .tc S512x128 32 [1] iota_S512x128_d1_w32) (broadcast S512x128 (BitVec.ofNat 32 lo)))
        (cmpi .slt (iota .tc S512x128 32 [1] iota_S512x128_d1_w32) (broadcast S512x128 (BitVec.ofNat 32 hi))))
      v (broadcast S512x128 (Named.named (F := Ideal) κ "neg_big" (φ := .f32) 0xF149F2CA#32)) (ix2 r j)
      = masked lo hi (fun j' => v (ix2 r j')) j := by
  have hi1 : iota .tc S512x128 32 [1] iota_S512x128_d1_w32 (ix2 r j) = BitVec.ofNat 32 j.val :=
    iota_single_apply .tc S512x128 32 1 iota_S512x128_d1_w32 (ix2 r j)
  show Scalar.select
      (IntOp.andi (IntOp.cmpi .sge (iota .tc S512x128 32 [1] iota_S512x128_d1_w32 (ix2 r j)) (BitVec.ofNat 32 lo))
        (IntOp.cmpi .slt (iota .tc S512x128 32 [1] iota_S512x128_d1_w32 (ix2 r j)) (BitVec.ofNat 32 hi)))
      (v (ix2 r j)) (Named.named (F := Ideal) κ "neg_big" (φ := .f32) 0xF149F2CA#32)
    = if lo ≤ j.val ∧ j.val < hi then v (ix2 r j) else ⊥
  rw [hi1, neg_big_eq]
  unfold Scalar.select
  by_cases h : lo ≤ j.val ∧ j.val < hi
  · rw [if_pos h]
    exact if_pos ((range_bit lo hi j.val hlo hhi j.isLt).mpr h)
  · rw [if_neg h]
    exact if_neg (fun hb => h ((range_bit lo hi j.val hlo hhi j.isLt).mp hb))

/-! ## A row's maximum and a row's sum -/

/-- The index a reduction over the columns inserts for row `r` and column `k` is `(r, k)`. -/
theorem rowLift_eq (r : Fin 512) (k : Fin 128) : reduces_S512x128_S512.lift (ix1 r) k = ix2 r k :=
  funext fun a => Fin.ext <| match a with | ⟨0, _⟩ => rfl | ⟨1, _⟩ => rfl

/-- The word of `-∞` denotes `⊥`. -/
theorem ofBits_negInf : Ideal.ofBits .f32 0xFF800000#32 = (⊥ : EReal) := by simp [Ideal.ofBits, Ideal.ieee]

/-- A ROW'S MAXIMUM: the fold of `max` from `⊥` over the row's 128 entries. -/
theorem rowMax_apply (v : FVec Ideal S512x128 .f32) (r : Fin 512) :
    multiReduction (F := Ideal) .maximumf [1] S512 v 0xFF800000#32 reduces_S512x128_S512 (.inl rfl) rfl (ix1 r)
      = (Finset.univ : Finset (Fin 128)).fold max ⊥ (fun j => v (ix2 r j)) := by
  refine (Ideal.multiReduction_maximumf_single v _ reduces_S512x128_S512 (.inl rfl) rfl (ix1 r)).trans ?_
  show (Finset.univ : Finset (Fin 128)).fold max (Ideal.ofBits .f32 0xFF800000#32)
      (fun k => v (reduces_S512x128_S512.lift (ix1 r) k)) = _
  rw [ofBits_negInf]
  exact congrArg (fun f => (Finset.univ : Finset (Fin 128)).fold max ⊥ f) (funext fun k => congrArg v (rowLift_eq r k))

/-- A ROW'S SUM: the sum of the row's 128 entries. -/
theorem rowSum_apply (v : FVec Ideal S512x128 .f32) (r : Fin 512) :
    multiReduction (F := Ideal) .add [1] S512 v 0x00000000#32 reduces_S512x128_S512 (.inl rfl) rfl (ix1 r)
      = ∑ j : Fin 128, v (ix2 r j) := by
  refine (Ideal.multiReduction_add_single v _ reduces_S512x128_S512 (.inl rfl) rfl (ix1 r)).trans ?_
  show ∑ k : Fin 128, v (reduces_S512x128_S512.lift (ix1 r) k) = _
  exact Finset.sum_congr rfl fun k _ => congrArg v (rowLift_eq r k)

/-! ## A vector of row values as a column, broadcast over the columns -/

/-- A vector of 512 entries viewed as a `[512, 1]` column reads, at `(r, u)`, entry `r`. -/
theorem colCast_apply (u : FVec Ideal S512 .f32) (r : Fin 512) (c : Fin 1) :
    shapeCast S512x1 u shapeCasts_S512_S512x1 (ix2 r c) = u (ix1 r) :=
  shapeCast_apply u shapeCasts_S512_S512x1 _ _ (by
    have hc : c.val = 0 := by omega
    rw [Shape.rowMajor_val_two, Shape.rowMajor_val_one]
    show r.val = r.val * 1 + c.val
    rw [hc, Nat.mul_one, Nat.add_zero])

/-- THE COLUMN BROADCAST: a vector of row values, viewed as a column and broadcast over the 128 columns, reads the
    value of row `r` at every `(r, j)`. -/
theorem colBroadcast_apply (u : FVec Ideal S512 .f32) (r : Fin 512) (j : Fin 128) :
    broadcastTo S512x128 (shapeCast S512x1 u shapeCasts_S512_S512x1) broadcasts_S512x1_S512x128 (ix2 r j) = u (ix1 r) := by
  refine (broadcastTo_apply (shapeCast S512x1 u shapeCasts_S512_S512x1) broadcasts_S512x1_S512x128 (ix2 r j)
    (ix2 r (0 : Fin 1)) fun ax => ?_).trans (colCast_apply u r 0)
  match ax with
  | ⟨0, _⟩ => rfl
  | ⟨1, _⟩ => rfl

end Cert.KernelIdeal.Pay

end
-- ==== Proof.PayScore.lean ====
/-
  The stacked scores, and the first two column ranges' softmax pieces, read at one entry.

  The score array is one contraction of the 512 query rows with the 128 stacked key rows over the 768 features, times
  the constant named "inv_sqrt_d" (the reciprocal of the reference's divisor), plus the stacked salience row broadcast
  down the rows: at `(r, j)` it is `kerScore` of query row `r` at slot `j`. The first range's weights are the
  softmax over all 128 columns of the row masked to the columns `[0, 64)`, added to zero; the second range's
  shifted scores are the row masked to `[64, 96)` minus its maximum. Each step is read at an entry: a product, sum,
  difference, quotient or exponential entry by entry, a row maximum as the fold of `max` from `⊥`, a row sum as the
  sum of the row's entries, a column broadcast as the row's value.
-/
import proofs.«105692_g850403525362_cont_9to1_m_493_2_alg».proof.Proof.MaskAt

noncomputable section

open scoped BigOperators

namespace Cert.KernelIdeal.Pay

open Cert.KernelIdeal Cert.KernelIdeal.Gen Cert.HMem Idealize.ShloMosaic Idealize.ShloMosaic.ValueIdx

/-! ## The scale constant -/

/-- The constant named "inv_sqrt_d" denotes the reciprocal of the reference's divisor, by the certificate's table of
    named constants. -/
theorem inv_sqrt_d_eq : Named.named (F := Ideal) κ "inv_sqrt_d" (φ := .f32) 0x3D13CD3A#32 = invSqrtD :=
  IdealRules.named_const.ideal_named_scalar _ _ _ _ rfl

/-! ## The score contraction at an entry -/

/-- The query operand's row coordinate is the result's row. -/
theorem lhs_score_0 (i : S512x128.Idx) (q : dot_S512x768_S128x768_S512x128_1_1_0_0_n_n.contr.Idx) :
    (dot_S512x768_S128x768_S512x128_1_1_0_0_n_n.lhsIdx i q 0).val = (i 0).val := by
  unfold DotDims.lhsIdx
  rw [dif_neg (show ¬(0 : Fin S512x768.rank) ∈ dot_S512x768_S128x768_S512x128_1_1_0_0_n_n.lhsBatch by decide), dif_pos (show (0 : Fin S512x768.rank) ∈ dot_S512x768_S128x768_S512x128_1_1_0_0_n_n.lhsNonContracting by decide)]
  rfl
/-- The query operand's feature coordinate is the contraction position. -/
theorem lhs_score_1 (i : S512x128.Idx) (q : dot_S512x768_S128x768_S512x128_1_1_0_0_n_n.contr.Idx) :
    (dot_S512x768_S128x768_S512x128_1_1_0_0_n_n.lhsIdx i q 1).val = (q ⟨0, by decide⟩).val :=
  dot_S512x768_S128x768_S512x128_1_1_0_0_n_n.lhsIdx_val_of_single rfl i q
/-- The key operand's row coordinate is the result's column. -/
theorem rhs_score_0 (i : S512x128.Idx) (q : dot_S512x768_S128x768_S512x128_1_1_0_0_n_n.contr.Idx) :
    (dot_S512x768_S128x768_S512x128_1_1_0_0_n_n.rhsIdx i q 0).val = (i 1).val := by
  unfold DotDims.rhsIdx
  rw [dif_neg (show ¬(0 : Fin S128x768.rank) ∈ dot_S512x768_S128x768_S512x128_1_1_0_0_n_n.rhsBatch by decide), dif_pos (show (0 : Fin S128x768.rank) ∈ dot_S512x768_S128x768_S512x128_1_1_0_0_n_n.rhsNonContracting by decide)]
  rfl
/-- The key operand's feature coordinate is the contraction position. -/
theorem rhs_score_1 (i : S512x128.Idx) (q : dot_S512x768_S128x768_S512x128_1_1_0_0_n_n.contr.Idx) :
    (dot_S512x768_S128x768_S512x128_1_1_0_0_n_n.rhsIdx i q 1).val = (q ⟨0, by decide⟩).val :=
  dot_S512x768_S128x768_S512x128_1_1_0_0_n_n.rhsIdx_val_of_single rfl i q

/-- THE SCORE CONTRACTION: accumulated from zero, at `(r, j)` it is the sum over the 768 features of query row `r`
    times key row `j`. -/
theorem scoreDot_apply (a : FVec Ideal S512x768 .f32) (b : FVec Ideal S128x768 .f32) (r : Fin 512) (j : Fin 128) :
    matmul dot_S512x768_S128x768_S512x128_1_1_0_0_n_n (some .fp32) a b (constant (F := Ideal) S512x128 .f32 0x00000000#32) (ix2 r j)
      = ∑ e : Fin 768, a (ix2 r e) * b (ix2 j e) := by
  simp only [matmul]
  rw [Ideal.matmul_constant_zero_apply, ← Equiv.sum_comp (contrEquiv1 dot_S512x768_S128x768_S512x128_1_1_0_0_n_n 768 rfl rfl).symm]
  refine Finset.sum_congr rfl fun k _ => ?_
  have hk := contrEquiv1_symm_val dot_S512x768_S128x768_S512x128_1_1_0_0_n_n 768 rfl rfl k
  have el : dot_S512x768_S128x768_S512x128_1_1_0_0_n_n.lhsIdx (ix2 r j) ((contrEquiv1 dot_S512x768_S128x768_S512x128_1_1_0_0_n_n 768 rfl rfl).symm k) = ix2 r k := funext fun ax => Fin.ext (by
    match ax with
    | ⟨0, _⟩ => exact lhs_score_0 _ _
    | ⟨1, _⟩ => exact (lhs_score_1 _ _).trans hk)
  have er : dot_S512x768_S128x768_S512x128_1_1_0_0_n_n.rhsIdx (ix2 r j) ((contrEquiv1 dot_S512x768_S128x768_S512x128_1_1_0_0_n_n 768 rfl rfl).symm k) = ix2 j k := funext fun ax => Fin.ext (by
    match ax with
    | ⟨0, _⟩ => exact rhs_score_0 _ _
    | ⟨1, _⟩ => exact (rhs_score_1 _ _).trans hk)
  rw [el, er]

/-! ## The scores -/

/-- Row `r` of the stacked scores: `kerScore` of query row `r` against the stacked keys and the stacked salience. -/
def srow (x0 : Vec Ideal S512x768 .f32) (x1 : Vec Ideal S128x768 .f32) (x3 : Vec Ideal S1x128 .f32) (r : Fin 512) : Fin 128 → EReal :=
  kerScore (fun e => x0 (ix2 r e)) (fun j e => x1 (ix2 j e)) (fun j => x3 (ix2 0 j))

/-- THE SCORES AT AN ENTRY: the contraction, scaled, plus the salience of the slot. -/
theorem pay2_apply (x0 : Vec Ideal S512x768 .f32) (x1 : Vec Ideal S128x768 .f32) (x3 : Vec Ideal S1x128 .f32) (r : Fin 512) (j : Fin 128) :
    k0_pay2 (F := Ideal) x0 x1 x3 (ix2 r j) = srow x0 x1 x3 r j := by
  unfold k0_pay2
  rw [shapeCast_self x0, shapeCast_self x1, shapeCast_self x3]
  show matmul dot_S512x768_S128x768_S512x128_1_1_0_0_n_n (some .fp32) x0 x1 (constant (F := Ideal) S512x128 .f32 0x00000000#32) (ix2 r j)
        * Named.named (F := Ideal) κ "inv_sqrt_d" (φ := .f32) 0x3D13CD3A#32
      + broadcastTo S512x128 x3 broadcasts_S1x128_S512x128 (ix2 r j) = _
  rw [scoreDot_apply, inv_sqrt_d_eq, broadcastTo_1b_ab_apply]
  rfl

/-- A row of the score array is `srow`. -/
theorem pay2_row (x0 : Vec Ideal S512x768 .f32) (x1 : Vec Ideal S128x768 .f32) (x3 : Vec Ideal S1x128 .f32) (r : Fin 512) :
    (fun j' => k0_pay2 (F := Ideal) x0 x1 x3 (ix2 r j')) = srow x0 x1 x3 r :=
  funext fun j' => pay2_apply x0 x1 x3 r j'

/-! ## A row's shifted entries and its softmax weights -/

/-- An array minus its row maxima reads, at `(r, j)`, the entry minus the maximum of row `r`; `s` is row `r`. -/
theorem shifted_apply (m : FVec Ideal S512x128 .f32) (s : Fin 128 → EReal) (r : Fin 512) (hm : ∀ j', m (ix2 r j') = s j') (j : Fin 128) :
    (subf m (broadcastTo S512x128 (shapeCast S512x1 (multiReduction (F := Ideal) .maximumf [1] S512 m 0xFF800000#32 reduces_S512x128_S512 (.inl rfl) rfl) shapeCasts_S512_S512x1) broadcasts_S512x1_S512x128)) (ix2 r j) = s j - (Finset.univ : Finset (Fin 128)).fold max ⊥ s := by
  have hs : (fun j' => m (ix2 r j')) = s := funext hm
  rw [subf_apply, colBroadcast_apply, rowMax_apply, hs, hm]

/-- The exponential of the shifted array over its row sums reads, at `(r, j)`, the softmax weight of column `j` in
    row `r`: the shifted exponential over the sum of the row's 128 shifted exponentials. -/
theorem softmax_apply (m : FVec Ideal S512x128 .f32) (s : Fin 128 → EReal) (r : Fin 512) (hm : ∀ j', m (ix2 r j') = s j') (j : Fin 128) :
    divf (exp (subf m (broadcastTo S512x128 (shapeCast S512x1 (multiReduction (F := Ideal) .maximumf [1] S512 m 0xFF800000#32 reduces_S512x128_S512 (.inl rfl) rfl) shapeCasts_S512_S512x1) broadcasts_S512x1_S512x128)))
      (broadcastTo S512x128 (shapeCast S512x1 (multiReduction (F := Ideal) .add [1] S512 (exp (subf m (broadcastTo S512x128 (shapeCast S512x1 (multiReduction (F := Ideal) .maximumf [1] S512 m 0xFF800000#32 reduces_S512x128_S512 (.inl rfl) rfl) shapeCasts_S512_S512x1) broadcasts_S512x1_S512x128))) 0x00000000#32 reduces_S512x128_S512 (.inl rfl) rfl) shapeCasts_S512_S512x1) broadcasts_S512x1_S512x128) (ix2 r j)
      = Ideal.div (Ideal.exp (s j - (Finset.univ : Finset (Fin 128)).fold max ⊥ s))
          (∑ i : Fin 128, Ideal.exp (s i - (Finset.univ : Finset (Fin 128)).fold max ⊥ s)) := by
  have hex : ∀ j', exp (subf m (broadcastTo S512x128 (shapeCast S512x1 (multiReduction (F := Ideal) .maximumf [1] S512 m 0xFF800000#32 reduces_S512x128_S512 (.inl rfl) rfl) shapeCasts_S512_S512x1) broadcasts_S512x1_S512x128)) (ix2 r j') = Ideal.exp (s j' - (Finset.univ : Finset (Fin 128)).fold max ⊥ s) := by
    intro j'
    show Ideal.exp ((subf m (broadcastTo S512x128 (shapeCast S512x1 (multiReduction (F := Ideal) .maximumf [1] S512 m 0xFF800000#32 reduces_S512x128_S512 (.inl rfl) rfl) shapeCasts_S512_S512x1) broadcasts_S512x1_S512x128)) (ix2 r j')) = _
    rw [shifted_apply m s r hm j']
  rw [divf_apply, colBroadcast_apply, rowSum_apply, hex]
  exact congrArg _ (Finset.sum_congr rfl fun i _ => hex i)

/-! ## The first range's weights and the second range's shifted scores -/

/-- THE FIRST RANGE'S WEIGHTS AT AN ENTRY: zero plus the softmax, over all 128 columns, of the score row masked to
    the columns `[0, 64)`. -/
theorem pay3_apply (x0 : Vec Ideal S512x768 .f32) (x1 : Vec Ideal S128x768 .f32) (x3 : Vec Ideal S1x128 .f32) (r : Fin 512) (j : Fin 128) :
    k0_pay3 (F := Ideal) x0 x1 x3 (ix2 r j) = 0 + segW 0 64 (srow x0 x1 x3 r) j := by
  have hm : ∀ j', select (andi (cmpi .sge (iota .tc S512x128 32 [1] iota_S512x128_d1_w32) (broadcast S512x128 0#32))
        (cmpi .slt (iota .tc S512x128 32 [1] iota_S512x128_d1_w32) (broadcast S512x128 64#32)))
      (k0_pay2 (F := Ideal) x0 x1 x3) (broadcast S512x128 (Named.named (F := Ideal) κ "neg_big" (φ := .f32) 0xF149F2CA#32)) (ix2 r j')
      = masked 0 64 (srow x0 x1 x3 r) j' := by
    intro j'
    rw [← pay2_row x0 x1 x3 r]
    exact masked_select 0 64 (by omega) (by omega) (k0_pay2 (F := Ideal) x0 x1 x3) r j'
  unfold k0_pay3
  refine (addf_apply _ _ (ix2 r j)).trans ?_
  rw [softmax_apply _ _ r hm j]
  show Ideal.ofBits .f32 0x00000000#32 + _ = _
  rw [Ideal.ofBits_zero_f32]
  rfl

/-- THE SECOND RANGE'S SHIFTED SCORES AT AN ENTRY: the score row masked to the columns `[64, 96)`, minus its
    maximum. -/
theorem pay4_apply (x0 : Vec Ideal S512x768 .f32) (x1 : Vec Ideal S128x768 .f32) (x3 : Vec Ideal S1x128 .f32) (r : Fin 512) (j : Fin 128) :
    k0_pay4 (F := Ideal) x0 x1 x3 (ix2 r j)
      = masked 64 96 (srow x0 x1 x3 r) j - (Finset.univ : Finset (Fin 128)).fold max ⊥ (masked 64 96 (srow x0 x1 x3 r)) := by
  have hm : ∀ j', select (andi (cmpi .sge (iota .tc S512x128 32 [1] iota_S512x128_d1_w32) (broadcast S512x128 64#32))
        (cmpi .slt (iota .tc S512x128 32 [1] iota_S512x128_d1_w32) (broadcast S512x128 96#32)))
      (k0_pay2 (F := Ideal) x0 x1 x3) (broadcast S512x128 (Named.named (F := Ideal) κ "neg_big" (φ := .f32) 0xF149F2CA#32)) (ix2 r j')
      = masked 64 96 (srow x0 x1 x3 r) j' := by
    intro j'
    rw [← pay2_row x0 x1 x3 r]
    exact masked_select 64 96 (by omega) (by omega) (k0_pay2 (F := Ideal) x0 x1 x3) r j'
  unfold k0_pay4
  exact shifted_apply _ _ r hm j

end Cert.KernelIdeal.Pay

end
-- ==== Proof.PayOut.lean ====
/-
  The stored block of the one-table form, read at one element.

  After the scores, the first range's weights and the second range's shifted masked scores are in hand, what is left of
  the body is: the second range's exponential over its row sum; the third range's whole softmax (mask the scores outside
  columns 96 to 112 with `⊥`, subtract the row maximum, exponentiate, divide by the row sum); the three weight rows added;
  the factor one third; and the contraction of the 128 slots with the stacked value rows into a zero accumulator.
  Read at row `r` and feature `d` this is `∑ j, (kerP (s r) j * third) * V j d`: exactly the summand of `kerOut`.

  Three steps: the last contraction at an index (a sum over the one contracted axis, re-indexed to the 128 slots);
  one range's quotient at an index (pointwise, a row sum, and the sum spread back along the row), which is `segW` by
  definition once the shifted row is known; and the assembly.
-/
import proofs.«105692_g850403525362_cont_9to1_m_493_2_alg».proof.Proof.Gen.KernelIdeal.Skeleton
import proofs.«105692_g850403525362_cont_9to1_m_493_2_alg».proof.Proof.Spec
import proofs.«105692_g850403525362_cont_9to1_m_493_2_alg».proof.Proof.MaskAt
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Cert.HMem Idealize.ShloMosaic Idealize.ShloMosaic.ValueIdx

/-! ## The last contraction read at an index -/

/-- The left operand's index of the last contraction keeps the output's row. -/
theorem lhs_out_0 (i : S512x768.Idx) (q : dot_S512x128_S128x768_S512x768_1_0_0_1_n_n.contr.Idx) :
    (dot_S512x128_S128x768_S512x768_1_0_0_1_n_n.lhsIdx i q 0).val = (i 0).val := by
  unfold DotDims.lhsIdx
  rw [dif_neg (show ¬(0 : Fin S512x128.rank) ∈ dot_S512x128_S128x768_S512x768_1_0_0_1_n_n.lhsBatch by decide), dif_pos (show (0 : Fin S512x128.rank) ∈ dot_S512x128_S128x768_S512x768_1_0_0_1_n_n.lhsNonContracting by decide)]
  rfl
/-- Its column is the contracted slot. -/
theorem lhs_out_1 (i : S512x768.Idx) (q : dot_S512x128_S128x768_S512x768_1_0_0_1_n_n.contr.Idx) :
    (dot_S512x128_S128x768_S512x768_1_0_0_1_n_n.lhsIdx i q 1).val = (q ⟨0, by decide⟩).val :=
  dot_S512x128_S128x768_S512x768_1_0_0_1_n_n.lhsIdx_val_of_single rfl i q
/-- The right operand's row is the contracted slot. -/
theorem rhs_out_0 (i : S512x768.Idx) (q : dot_S512x128_S128x768_S512x768_1_0_0_1_n_n.contr.Idx) :
    (dot_S512x128_S128x768_S512x768_1_0_0_1_n_n.rhsIdx i q 0).val = (q ⟨0, by decide⟩).val :=
  dot_S512x128_S128x768_S512x768_1_0_0_1_n_n.rhsIdx_val_of_single rfl i q
/-- Its column is the output's feature. -/
theorem rhs_out_1 (i : S512x768.Idx) (q : dot_S512x128_S128x768_S512x768_1_0_0_1_n_n.contr.Idx) :
    (dot_S512x128_S128x768_S512x768_1_0_0_1_n_n.rhsIdx i q 1).val = (i 1).val := by
  unfold DotDims.rhsIdx
  rw [dif_neg (show ¬(1 : Fin S128x768.rank) ∈ dot_S512x128_S128x768_S512x768_1_0_0_1_n_n.rhsBatch by decide), dif_pos (show (1 : Fin S128x768.rank) ∈ dot_S512x128_S128x768_S512x768_1_0_0_1_n_n.rhsNonContracting by decide)]
  rfl

/-- The weights contracted with the stacked values into the zero accumulator, at row `r` and feature `d`: the sum over
    the 128 slots of the weight of slot `j` times the value row `j` at `d`. -/
theorem matmul_out_apply (p : FVec Ideal S512x128 .f32) (x2 : FVec Ideal S128x768 .f32) (r : Fin 512) (d : Fin 768) :
    matmul dot_S512x128_S128x768_S512x768_1_0_0_1_n_n (some .fp32) p x2 (constant (F := Ideal) S512x768 .f32 0x00000000#32) (ix2 r d)
      = ∑ j : Fin 128, p (ix2 r j) * x2 (ix2 j d) := by
  simp only [matmul]
  rw [Ideal.matmul_constant_zero_apply, ← Equiv.sum_comp (contrEquiv1 dot_S512x128_S128x768_S512x768_1_0_0_1_n_n 128 rfl rfl).symm]
  refine Finset.sum_congr rfl fun k _ => ?_
  have hk := contrEquiv1_symm_val dot_S512x128_S128x768_S512x768_1_0_0_1_n_n 128 rfl rfl k
  have el : dot_S512x128_S128x768_S512x768_1_0_0_1_n_n.lhsIdx (ix2 r d) ((contrEquiv1 dot_S512x128_S128x768_S512x768_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S512x128_S128x768_S512x768_1_0_0_1_n_n.rhsIdx (ix2 r d) ((contrEquiv1 dot_S512x128_S128x768_S512x768_1_0_0_1_n_n 128 rfl rfl).symm k) = ix2 k d := funext fun a => Fin.ext (by
    match a with
    | ⟨0, _⟩ => exact (rhs_out_0 _ _).trans hk
    | ⟨1, _⟩ => exact rhs_out_1 _ _)
  rw [el, er]

/-! ## One range's weights read at an index -/

/-- For any shifted row `w`: its exponential over the row's sum of exponentials (the sum kept along the row and
    spread back over the 128 columns), at row `r` and slot `j`. -/
theorem seg_apply (w : FVec Ideal S512x128 .f32) (r : Fin 512) (j : Fin 128) :
    divf (exp w) (broadcastTo S512x128 (shapeCast S512x1
        (multiReduction (F := Ideal) .add [1] S512 (exp w) 0x00000000#32 reduces_S512x128_S512 (.inl rfl) rfl)
        shapeCasts_S512_S512x1) broadcasts_S512x1_S512x128) (ix2 r j)
      = Ideal.div (Ideal.exp (w (ix2 r j))) (∑ i : Fin 128, Ideal.exp (w (ix2 r i))) := by
  rw [divf_apply, colBroadcast_apply, rowSum_apply]
  rfl

/-- When row `r` of `w` is the masked row of `s'` over `[lo, hi)` minus its maximum, that quotient is the
    range's softmax weight `segW lo hi s' j`. -/
theorem segW_apply (lo hi : Nat) (w : FVec Ideal S512x128 .f32) (s' : Fin 128 → EReal) (r : Fin 512)
    (hw : ∀ i, w (ix2 r i) = masked lo hi s' i - (Finset.univ : Finset (Fin 128)).fold max ⊥ (masked lo hi s'))
    (j : Fin 128) :
    divf (exp w) (broadcastTo S512x128 (shapeCast S512x1
        (multiReduction (F := Ideal) .add [1] S512 (exp w) 0x00000000#32 reduces_S512x128_S512 (.inl rfl) rfl)
        shapeCasts_S512_S512x1) broadcasts_S512x1_S512x128) (ix2 r j)
      = segW lo hi s' j := by
  refine (seg_apply w r j).trans ?_
  have hrow : (fun i => w (ix2 r i))
      = fun i => masked lo hi s' i - (Finset.univ : Finset (Fin 128)).fold max ⊥ (masked lo hi s') := funext hw
  show Ideal.div (Ideal.exp ((fun i => w (ix2 r i)) j)) (∑ i : Fin 128, Ideal.exp ((fun i => w (ix2 r i)) i)) = _
  rw [hrow]
  rfl

/-! ## The third range inside the payload, and the assembly -/

/-- The scores with the columns outside `[lo, hi)` replaced by the constant named "neg_big". -/
abbrev maskedVec (lo hi : Nat) (v : FVec Ideal S512x128 .f32) : FVec Ideal S512x128 .f32 :=
  select (andi (cmpi .sge (iota .tc S512x128 32 [1] iota_S512x128_d1_w32) (broadcast S512x128 (BitVec.ofNat 32 lo)))
      (cmpi .slt (iota .tc S512x128 32 [1] iota_S512x128_d1_w32) (broadcast S512x128 (BitVec.ofNat 32 hi))))
    v (broadcast S512x128 (Named.named (F := Ideal) κ "neg_big" (φ := .f32) 0xF149F2CA#32))

/-- A row block minus its row maxima (the maximum kept along the row and spread back over the 128 columns). -/
abbrev shiftVec (m : FVec Ideal S512x128 .f32) : FVec Ideal S512x128 .f32 :=
  subf m (broadcastTo S512x128 (shapeCast S512x1
    (multiReduction (F := Ideal) .maximumf [1] S512 m 0xFF800000#32 reduces_S512x128_S512 (.inl rfl) rfl)
    shapeCasts_S512_S512x1) broadcasts_S512x1_S512x128)

/-- At row `r`, slot `j`: the element minus the fold of `max` from `⊥` over the row. -/
theorem shiftVec_apply (m : FVec Ideal S512x128 .f32) (r : Fin 512) (j : Fin 128) :
    shiftVec m (ix2 r j) = m (ix2 r j) - (Finset.univ : Finset (Fin 128)).fold max ⊥ (fun i => m (ix2 r i)) := by
  show subf m _ (ix2 r j) = _
  rw [subf_apply, colBroadcast_apply, rowMax_apply]

/-- The masked block's row `r` is the masked row of the scores, when the block's entries are `s`. -/
theorem maskedVec_row (lo hi : Nat) (hlo : lo ≤ 128) (hhi : hi ≤ 128) (v : FVec Ideal S512x128 .f32)
    (s : Fin 512 → Fin 128 → EReal) (hv : ∀ r j, v (ix2 r j) = s r j) (r : Fin 512) :
    (fun i => maskedVec lo hi v (ix2 r i)) = masked lo hi (s r) := by
  funext i
  refine (masked_select lo hi hlo hhi v r i).trans ?_
  exact congrArg (fun f => masked lo hi f i) (funext fun j' => hv r j')

/-- The third range's shifted masked row, from the block of scores. -/
theorem shifted_masked_apply (lo hi : Nat) (hlo : lo ≤ 128) (hhi : hi ≤ 128) (v : FVec Ideal S512x128 .f32)
    (s : Fin 512 → Fin 128 → EReal) (hv : ∀ r j, v (ix2 r j) = s r j) (r : Fin 512) (i : Fin 128) :
    shiftVec (maskedVec lo hi v) (ix2 r i)
      = masked lo hi (s r) i - (Finset.univ : Finset (Fin 128)).fold max ⊥ (masked lo hi (s r)) := by
  have hrow := maskedVec_row lo hi hlo hhi v s hv r
  rw [shiftVec_apply, hrow]
  exact congrArg (· - (Finset.univ : Finset (Fin 128)).fold max ⊥ (masked lo hi (s r))) (congrFun hrow i)

/-- THE PAYLOAD AT AN INDEX. With the scores `s`, the first range's weights added to zero, and the second range's
    shifted masked scores given, the stored block at row `r`, feature `d` is the sum over the 128 slots of the three
    ranges' weights added from zero, times one third, times the stacked value row at `d`. -/
theorem pay1_apply (v10 v29 v40 : FVec Ideal S512x128 .f32) (x2 : Vec Ideal S128x768 .f32) (s : Fin 512 → Fin 128 → EReal)
    (h10 : ∀ r j, v10 (ix2 r j) = s r j) (h29 : ∀ r j, v29 (ix2 r j) = 0 + segW 0 64 (s r) j)
    (h40 : ∀ r j, v40 (ix2 r j) = masked 64 96 (s r) j - (Finset.univ : Finset (Fin 128)).fold max ⊥ (masked 64 96 (s r)))
    (r : Fin 512) (d : Fin 768) :
    k0_pay1 (F := Ideal) v10 (iota .tc S512x128 32 [1] iota_S512x128_d1_w32) v29 v40 x2 (ix2 r d)
      = ∑ j : Fin 128, (kerP (s r) j * third) * x2 (ix2 j d) := by
  unfold k0_pay1
  refine (matmul_out_apply _ _ r d).trans ?_
  refine Finset.sum_congr rfl fun j _ => ?_
  rw [shapeCast_self]
  refine congrArg (· * x2 (ix2 j d)) ?_
  rw [mulf_apply, broadcast_apply, addf_apply, addf_apply,
    segW_apply 64 96 v40 (s r) r (h40 r) j,
    segW_apply 96 112 (shiftVec (maskedVec 96 112 v10)) (s r) r
      (shifted_masked_apply 96 112 (by omega) (by omega) v10 s h10 r) j,
    h29 r j]
  rfl

end Cert.KernelIdeal.Pay

end
-- ==== Proof.FinalKI.lean ====
/-
  What the stacked program computes. At point `t` the body stores, at row `r` and feature `d` of its output block, the
  stacked read of row `r` of its query block against the stacked keys, bias and values it loaded; the query block at
  point `t` is rows 512·t … 512·t + 511 of the 16384 query rows, the other three blocks are the whole stacked tables, and
  those are the three input tables one under the other with sixteen zero slots. So block `t` of the region's result is
  block `t` of ONE function of the inputs; the 32 blocks cover the 16384 rows (row `n` lies in block `n / 512`); and the
  reshape after the region reads row `b·4096 + t` as entry `(b, t)`. The result is the stacked form `Inp.ker` of the
  launch arguments, by coordinates.
-/
import proofs.«105692_g850403525362_cont_9to1_m_493_2_alg».proof.Proof.FrameKI
import proofs.«105692_g850403525362_cont_9to1_m_493_2_alg».proof.Proof.InpKI
import proofs.«105692_g850403525362_cont_9to1_m_493_2_alg».proof.Proof.Spec
import proofs.«105692_g850403525362_cont_9to1_m_493_2_alg».proof.Proof.HostValKI
import proofs.«105692_g850403525362_cont_9to1_m_493_2_alg».proof.Proof.PayScore
import proofs.«105692_g850403525362_cont_9to1_m_493_2_alg».proof.Proof.PayOut
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.HMem Cert.KernelIdeal.Pay

/-! ## The stored value at an index -/

theorem hz : (![0, 0] : Fin 2 → Nat) = fun _ => 0 := funext fun a => by fin_cases a <;> rfl

/-- The value the body stores, at row `r` and feature `d` of the block: the stacked read of row `r` of the query block
    against the stacked keys, bias and values it loaded. -/
theorem outVal_apply (x0 : Vec Ideal S512x768 .f32) (x1 x2 : Vec Ideal S128x768 .f32) (x3 : Vec Ideal S1x128 .f32)
    (r : Fin 512) (d : Fin 768) :
    outVal (F := Ideal) x0 x1 x2 x3 (ix2 r d)
      = kerOut (fun e => x0 (ix2 r e)) (fun j e => x1 (ix2 j e)) (fun j => x3 (ix2 (0 : Fin 1) j)) (fun j e => x2 (ix2 j e)) d := by
  unfold outVal
  simp only [View.ld_unit_zero (S := S512x768) hz, View.ld_unit_zero (S := S128x768) hz, View.ld_unit_zero (S := S1x128) hz]
  rw [pay1_apply _ _ _ x2 (srow x0 x1 x3) (pay2_apply x0 x1 x3) (pay3_apply x0 x1 x3) (pay4_apply x0 x1 x3) r d]
  rfl

/-- So, for blocks whose entries are the inputs' — row `r` of the query block the query row `(b, t)`, the other three
    the stacked tables — the stored value is the stacked form's result at `(b, t, d)`. -/
theorem outVal_of_entries (I : Inp) (b : Fin 4) (tt : Fin 4096)
    (x0 : Vec Ideal S512x768 .f32) (x1 x2 : Vec Ideal S128x768 .f32) (x3 : Vec Ideal S1x128 .f32) (r : Fin 512) (d : Fin 768)
    (h0 : ∀ e, x0 (ix2 r e) = I.q b tt e) (h1 : ∀ j e, x1 (ix2 j e) = stack2 I.k0 I.k1 I.k2 j e)
    (h2 : ∀ j e, x2 (ix2 j e) = stack2 I.v0 I.v1 I.v2 j e) (h3 : ∀ j, x3 (ix2 (0 : Fin 1) j) = stack1 I.s0 I.s1 I.s2 j) :
    outVal (F := Ideal) x0 x1 x2 x3 (ix2 r d) = I.ker b tt d := by
  rw [outVal_apply]
  unfold Inp.ker
  rw [show (fun e => x0 (ix2 r e)) = I.q b tt from funext h0,
    show (fun j e => x1 (ix2 j e)) = stack2 I.k0 I.k1 I.k2 from funext fun j => funext (h1 j),
    show (fun j => x3 (ix2 (0 : Fin 1) j)) = stack1 I.s0 I.s1 I.s2 from funext h3,
    show (fun j e => x2 (ix2 j e)) = stack2 I.v0 I.v1 I.v2 from funext fun j => funext (h2 j)]

/-! ## The blocks of the arrays -/

variable (m : (ℓ : Loc nD τ sig) → Buf (Elt Ideal) ℓ) (ρ : Dev nD → PrngReg)

/-- The index maps over the grid: the query's and the output's block is the point's own, the other three windows stay
    at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid has 32 points. -/
theorem lt32 (t : Fin cfg0.N) : t.val < 32 := lt_of_lt_of_eq t.isLt N_0

/-- Row `512·t + r` of the 16384 query rows is row `(512·t + r) mod 4096` of batch `(512·t + r) / 4096`. -/
def rowB (t : Fin cfg0.N) (r : Fin 512) : Fin 4 := ⟨(512 * t.val + r.val) / 4096, by have := lt32 t; have := r.isLt; omega⟩
def rowT (t : Fin cfg0.N) (r : Fin 512) : Fin 4096 := ⟨(512 * t.val + r.val) % 4096, Nat.mod_lt _ (by norm_num)⟩

/-- The query block at point `t`: its row `r` is that query row. -/
theorem qblk_apply (c : Dev nD) (t : Fin cfg0.N) (r : Fin 512) (e : Fin 768) :
    (iblk m c 0 t : S512x768.Idx → EReal) (ix2 r e) = (inp m c).q (rowB t r) (rowT t r) e := by
  have ht : t.val < 32 := lt32 t
  rw [← V_query m c (rowB t r) (rowT t r) e]
  show (V m c main_v0 : S16384x768.Idx → EReal) (((cfg0.win 0).blk t).view.emb (ix2 r e)) = _
  congr 1
  obtain ⟨e0, e1, -⟩ := idx_facts t
  funext a; apply Fin.ext
  match a with
  | ⟨0, _⟩ =>
    show win0_0.index t (0 : Fin 2) * 512 + 1 * r.val = (512 * t.val + r.val) / 4096 * 4096 + (512 * t.val + r.val) % 4096
    omega
  | ⟨1, _⟩ =>
    show win0_0.index t (1 : Fin 2) * 768 + 1 * e.val = e.val
    omega

/-- The stacked keys' block is the whole stacked table. -/
theorem kblk_apply (c : Dev nD) (t : Fin cfg0.N) (j : Fin 128) (e : Fin 768) :
    (iblk m c 1 t : S128x768.Idx → EReal) (ix2 j e) = stack2 (inp m c).k0 (inp m c).k1 (inp m c).k2 j e := by
  rw [← V_keys m c j e]
  show (V m c main_v3 : S128x768.Idx → EReal) (((cfg0.win 1).blk t).view.emb (ix2 j e)) = _
  congr 1
  obtain ⟨-, -, e2, e3, -⟩ := idx_facts t
  funext a; apply Fin.ext
  match a with
  | ⟨0, _⟩ => show win0_1.index t (0 : Fin 2) * 128 + 1 * j.val = j.val; omega
  | ⟨1, _⟩ => show win0_1.index t (1 : Fin 2) * 768 + 1 * e.val = e.val; omega

/-- The stacked values' block is the whole stacked table. -/
theorem vblk_apply (c : Dev nD) (t : Fin cfg0.N) (j : Fin 128) (e : Fin 768) :
    (iblk m c 2 t : S128x768.Idx → EReal) (ix2 j e) = stack2 (inp m c).v0 (inp m c).v1 (inp m c).v2 j e := by
  rw [← V_values m c j e]
  show (V m c main_v4 : S128x768.Idx → EReal) (((cfg0.win 2).blk t).view.emb (ix2 j e)) = _
  congr 1
  obtain ⟨-, -, -, -, e4, e5, -⟩ := idx_facts t
  funext a; apply Fin.ext
  match a with
  | ⟨0, _⟩ => show win0_2.index t (0 : Fin 2) * 128 + 1 * j.val = j.val; omega
  | ⟨1, _⟩ => show win0_2.index t (1 : Fin 2) * 768 + 1 * e.val = e.val; omega

/-- The bias block is the whole stacked salience row. -/
theorem bblk_apply (c : Dev nD) (t : Fin cfg0.N) (j : Fin 128) :
    (iblk m c 3 t : S1x128.Idx → EReal) (ix2 (0 : Fin 1) j) = stack1 (inp m c).s0 (inp m c).s1 (inp m c).s2 j := by
  rw [← V_bias m c j]
  show (V m c main_v7 : S1x128.Idx → EReal) (((cfg0.win 3).blk t).view.emb (ix2 (0 : Fin 1) j)) = _
  congr 1
  obtain ⟨-, -, -, -, -, -, e6, e7, -⟩ := idx_facts t
  funext a; apply Fin.ext
  match a with
  | ⟨0, _⟩ => show win0_3.index t (0 : Fin 2) * 1 + 1 * 0 = 0; omega
  | ⟨1, _⟩ => show win0_3.index t (1 : Fin 2) * 128 + 1 * j.val = j.val; omega

/-! ## From blocks to the array -/

/-- The region's result array, 16384 rows: row `n` is the stacked form's result for query row `n mod 4096` of batch
    `n / 4096`. -/
def rowsOut (c : Dev nD) : S16384x768.Idx → EReal := fun i =>
  (inp m c).ker ⟨(i 0).val / 4096, by have := idx2_lt0 i; omega⟩ ⟨(i 0).val % 4096, Nat.mod_lt _ (by norm_num)⟩ (i 1)

/-- What point `t` writes back is block `t` of `rowsOut`. -/
theorem flushed_eq (c : Dev nD) (t : Fin cfg0.N) :
    (dats m 0 c).flushed 4 t = ((cfg0.win 4).blk t).view.read (Elt Ideal) (rowsOut m c) := by
  show (cfg0.win 4).cut (grid0.coords t) ((dats m 0 c).after 4 t) = _
  rw [after0_4]
  unfold outBlock
  rw [View.canon_unit_zero hz]
  funext j
  obtain ⟨-, -, -, -, -, -, -, -, e8, e9⟩ := idx_facts t
  show outVal (F := Ideal) (iblk m c 0 t) (iblk m c 1 t) (iblk m c 2 t) (iblk m c 3 t) j = rowsOut m c (((cfg0.win 4).blk t).view.emb j)
  have hj : j = ix2 (j 0) (j 1) := eq_ix2 (n0 := 512) (n1 := 768) j
  have hemb : ((cfg0.win 4).blk t).view.emb j = ix2 (⟨512 * t.val + (j 0).val, by have := lt32 t; have := idx2_lt0 (n0 := 512) (n1 := 768) j; omega⟩ : Fin 16384) (j 1) := by
    funext a; apply Fin.ext
    match a with
    | ⟨0, _⟩ => show win0_4.index t (0 : Fin 2) * 512 + 1 * (j 0).val = 512 * t.val + (j 0).val; omega
    | ⟨1, _⟩ => show win0_4.index t (1 : Fin 2) * 768 + 1 * (j 1).val = (j 1).val; omega
  rw [hemb]
  refine (congrArg (outVal (F := Ideal) (iblk m c 0 t) (iblk m c 1 t) (iblk m c 2 t) (iblk m c 3 t)) hj).trans ?_
  exact outVal_of_entries (inp m c) (rowB t (j 0)) (rowT t (j 0)) _ _ _ _ (j 0) (j 1)
    (qblk_apply m c t (j 0)) (kblk_apply m c t) (vblk_apply m c t) (bblk_apply m c t)

/-- An index of the array is in point `t`'s block iff each coordinate is in the block's range. -/
theorem mem_blk (t : Fin cfg0.N) (i : S16384x768.Idx) :
    i ∈ ((cfg0.win 4).blk t).view.set ↔ ∀ a : Fin 2, win0_4.index t a * S512x768.size a ≤ (i a).val ∧ (i a).val < win0_4.index t a * S512x768.size a + S512x768.size a := by
  show i ∈ ((View.whole main_v8).slice (win0_4.rect t)).set ↔ _
  rw [View.set_slice_whole, Rect.mem_set_unit]
  exact Iff.rfl

/-- Every row is in some point's block: row `n` in point `n / 512`'s. -/
theorem cover (i : S16384x768.Idx) : ∃ t : Fin cfg0.N, (cfg0.win 4).flush t = true ∧ i ∈ ((cfg0.win 4).blk t).view.set := by
  have hi0 : (i 0).val < 16384 := idx2_lt0 i
  have hi1 : (i 1).val < 768 := idx2_lt1 i
  refine ⟨⟨(i 0).val / 512, lt_of_lt_of_eq (by omega : (i 0).val / 512 < 32) N_0.symm⟩, flush0_4 _, ?_⟩
  rw [mem_blk]
  obtain ⟨-, -, -, -, -, -, -, -, e8, e9⟩ := idx_facts ⟨(i 0).val / 512, lt_of_lt_of_eq (by omega : (i 0).val / 512 < 32) N_0.symm⟩
  intro a
  match a with
  | ⟨0, _⟩ =>
    show win0_4.index _ (0 : Fin 2) * 512 ≤ (i 0).val ∧ (i 0).val < win0_4.index _ (0 : Fin 2) * 512 + 512
    rw [e8]; show (i 0).val / 512 * 512 ≤ (i 0).val ∧ (i 0).val < (i 0).val / 512 * 512 + 512
    omega
  | ⟨1, _⟩ =>
    show win0_4.index _ (1 : Fin 2) * 768 ≤ (i 1).val ∧ (i 1).val < win0_4.index _ (1 : Fin 2) * 768 + 768
    rw [e9]; omega

/-- The region's result array after the run. -/
theorem final (c : Dev nD) : (dats m 0 c).arrAt 4 cfg0.N = rowsOut m c :=
  (dats m 0 c).arrAt_eq_of_cover 4 (rowsOut m c) (fun t _ => flushed_eq m c t) (cover)

/-! ## The reshape after the region, and the run -/

/-- The program's result `[4, 4096, 768]` after the reshape: the stacked form's result by coordinates. -/
theorem result_eq (c : Dev nD) :
    (Pipeline.afterTail₀ cfgs (dats m) 0 (V0 m) [hostOps1] c main_v9 : S4x4096x768.Idx → EReal)
      = fun i => (inp m c).ker (i 0) (i 1) (i 2) := by
  unfold Pipeline.afterTail₀
  show StableHlo.after hostOps1 _ (Proc.devRef .tc main_v9) = _
  after_results
  rw [(Pipeline.withArrays_arr spec0 launch0.win.arr_inj c _ _ 4).trans (final m c)]
  funext i
  obtain ⟨b, t, d, rfl⟩ : ∃ (b : Fin 4) (t : Fin 4096) (d : Fin 768), i = ix3 b t d := ⟨i 0, i 1, i 2, eq_ix3 i⟩
  show shapeCast S4x4096x768 (rowsOut m c) shapeCasts_S16384x768_S4x4096x768 (ix3 b t d) = (inp m c).ker b t d
  have hbt : b.val * 4096 + t.val < 16384 := by have := b.isLt; have := t.isLt; omega
  refine (shapeCast_apply (rowsOut m c) shapeCasts_S16384x768_S4x4096x768 (ix3 b t d) (ix2 (⟨b.val * 4096 + t.val, hbt⟩ : Fin 16384) d) (by
      rw [Shape.rowMajor_val_two, Shape.rowMajor_val_three]
      rfl)).trans ?_
  have hb : (⟨(b.val * 4096 + t.val) / 4096, by omega⟩ : Fin 4) = b :=
    Fin.ext (by show (b.val * 4096 + t.val) / 4096 = b.val; have := t.isLt; omega)
  have ht : (⟨(b.val * 4096 + t.val) % 4096, Nat.mod_lt _ (by norm_num)⟩ : Fin 4096) = t :=
    Fin.ext (by show (b.val * 4096 + t.val) % 4096 = t.val; have := t.isLt; omega)
  show (inp m c).ker ⟨(b.val * 4096 + t.val) / 4096, _⟩ ⟨(b.val * 4096 + t.val) % 4096, _⟩ d = _
  rw [hb, ht]

/-- Every weakly fair execution of the stacked program terminates with its result the stacked form's result of the
    launch arguments, by coordinates, and the arguments as launched. -/
theorem run_value : θ_run defs (onTc (τ := τ) (main (F := Ideal))) ⟨m, fun _ => 0, ρ⟩ (fun r => ∀ c : Dev nD,
      r.2.mem ((c.tc : Thread nD τ).loc main_v9) = (fun i : S4x4096x768.Idx => (inp m c).ker (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v9 (Pipeline.mem_restRefs_of main_v9 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Frm

end
-- ==== Proof.FiniteKI.lean ====
/-
  From the precondition to finiteness of the inputs. The precondition says, of each of the ten argument
  arrays, that every entry's absolute value is strictly below +∞, the ten statements and-ed into one bit. At the ideal
  instance an entry is an extended real, its absolute value is `max x (-x)`, and the word `0x7F800000` denotes `⊤`; an
  extended real whose absolute value is below `⊤` is neither `⊤` nor `⊥`, so it is a real number.
-/
import proofs.«105692_g850403525362_cont_9to1_m_493_2_alg».proof.Defs
import proofs.«105692_g850403525362_cont_9to1_m_493_2_alg».proof.Proof.InpKI
import proofs.«105692_g850403525362_cont_9to1_m_493_2_alg».proof.Proof.Gen.Pre_finite_inputs
import Idealize.ShloMosaic.Lib.ReduceAll

noncomputable section

namespace Cert.KernelIdeal.Frm

open Idealize.ShloMosaic Idealize.ShloMosaic.TcCoe Idealize.ShloMosaic.ValueIdx
open Idealize.SL Idealize.SL.Sem
open Cert.KernelIdeal

/-- The shape of a scalar has exactly one index. -/
instance subsingleton_scalar_idx : Subsingleton (⟨0, ![]⟩ : Shape).Idx := ⟨fun a b => funext fun d => d.elim0⟩

/-- An extended real whose absolute value `max x (-x)` compares strictly below the value of `0x7F800000` (which is `⊤`)
    is a real number: at `⊤` and at `⊥` the absolute value is `⊤` itself. -/
theorem real_of_abs_lt_inf (x : EReal)
    (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- One array of any shape: if the all-reduce by `and` of the entrywise test "absolute value below +∞" is 1, every
    entry is a real number. -/
theorem real_of_all_abs_lt_inf {s : Shape} {axes : List (Fin s.rank)} (x : FVec Ideal s .f32)
    (bc : (⟨0, ![]⟩ : Shape).BroadcastsInDim s (![] : Fin 0 → Fin s.rank)) (rd : s.ReducesTo axes ⟨0, ![]⟩)
    (h0 : 0 < (⟨0, ![]⟩ : Shape).numel)
    (e : Host.reduce IntOp.andi
        (cmpf .olt (Host.absf x) (broadcastInDim s ![] bc (constant (F := Ideal) ⟨0, ![]⟩ .f32 0x7F800000#32)))
        (constantI ⟨0, ![]⟩ 1 1#1) rd h0 ix0 = 1#1)
    (i : s.Idx) : ∃ r : ℝ, x i = r := by
  have hi := Host.reduce_andi_all _ _ rd h0 ix0 e i
  exact real_of_abs_lt_inf (x i) hi

/-- The precondition of the stacked program's launch memory makes every entry of the ten inputs a real number: the
    precondition is the and of ten all-reduces, one per argument array in order; each conjunct is read back
    entry by entry. -/
theorem finite_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (inp m c).Finite := by
  have e := congrFun (h c) ValueIdx.ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨⟨e0, e1⟩, e2⟩, e3⟩, e4⟩, e5⟩, e6⟩, e7⟩, e8⟩, e9⟩ := e
  exact
    { q := fun b t d => real_of_all_abs_lt_inf _ _ _ _ e0 (ix3 b t d)
      k0 := fun j d => real_of_all_abs_lt_inf _ _ _ _ e1 (ix2 j d)
      v0 := fun j d => real_of_all_abs_lt_inf _ _ _ _ e2 (ix2 j d)
      s0 := fun j => real_of_all_abs_lt_inf _ _ _ _ e3 (ix1 j)
      k1 := fun j d => real_of_all_abs_lt_inf _ _ _ _ e4 (ix2 j d)
      v1 := fun j d => real_of_all_abs_lt_inf _ _ _ _ e5 (ix2 j d)
      s1 := fun j => real_of_all_abs_lt_inf _ _ _ _ e6 (ix1 j)
      k2 := fun j d => real_of_all_abs_lt_inf _ _ _ _ e7 (ix2 j d)
      v2 := fun j d => real_of_all_abs_lt_inf _ _ _ _ e8 (ix2 j d)
      s2 := fun j => real_of_all_abs_lt_inf _ _ _ _ e9 (ix1 j) }

end Cert.KernelIdeal.Frm

end
-- ==== Proof.RowMath.lean ====
/-
  A softmax over 128 columns of a row whose entries outside a range `[lo, lo + n)` were replaced by `⊥` is the softmax
  of the `n` entries inside the range, and zero outside it: `⊥` is neutral for the maximum, `⊥ - x = ⊥`, and
  `exp ⊥ = 0`, so the columns outside the range drop out of the maximum and of the sum.
-/
import proofs.«105692_g850403525362_cont_9to1_m_493_2_alg».proof.Proof.Spec
import Mathlib.Data.EReal.Operations
import Mathlib.Data.Finset.Lattice.Fold

noncomputable section

open scoped BigOperators

namespace Cert.HMem

open Idealize.ShloMosaic

/-- The entries of a 128-column row inside the range `[lo, lo + n)`, as an `n`-column row. -/
def slice (lo n : Nat) (h : lo + n ≤ 128) (s : Fin 128 → EReal) (i : Fin n) : EReal := s ⟨lo + i.val, by omega⟩

/-! ## The maximum of a row -/

/-- The fold of `max` from `⊥` over a row is the row's supremum. -/
private theorem foldMax_eq_sup {n : Nat} (f : Fin n → EReal) :
    (Finset.univ : Finset (Fin n)).fold max ⊥ f = (Finset.univ : Finset (Fin n)).sup f := rfl

/-- Joining once more with `⊥` changes nothing: the softmax's row maximum is the fold itself. -/
private theorem refMax_eq_fold {n : Nat} (f : Fin n → EReal) :
    refMax f = (Finset.univ : Finset (Fin n)).fold max ⊥ f := by
  unfold refMax
  exact max_eq_right bot_le

/-- The maximum of a non-empty row of real numbers is a real number: it is one of the entries. -/
private theorem foldMax_real {n : Nat} (hn : 0 < n) (f : Fin n → EReal) (hf : ∀ i, ∃ r : ℝ, f i = r) :
    ∃ m : ℝ, (Finset.univ : Finset (Fin n)).fold max ⊥ f = m := by
  haveI : Nonempty (Fin n) := ⟨⟨0, hn⟩⟩
  rw [foldMax_eq_sup]
  obtain ⟨i, _, hi⟩ := Finset.exists_mem_eq_sup (Finset.univ : Finset (Fin n)) Finset.univ_nonempty f
  obtain ⟨r, hr⟩ := hf i
  exact ⟨r, hi.trans hr⟩

/-- A masked entry inside the range is the range's own entry. -/
private theorem masked_inside (lo n : Nat) (h : lo + n ≤ 128) (s : Fin 128 → EReal) (i : Fin n) :
    masked lo (lo + n) s ⟨lo + i.val, by omega⟩ = slice lo n h s i := by
  unfold masked slice
  rw [if_pos]
  exact ⟨Nat.le_add_right _ _, Nat.add_lt_add_left i.isLt _⟩

/-- A masked entry outside the range is `⊥`. -/
private theorem masked_outside (lo n : Nat) (s : Fin 128 → EReal) (j : Fin 128)
    (hj : ¬ (lo ≤ j.val ∧ j.val < lo + n)) : masked lo (lo + n) s j = ⊥ := by
  unfold masked
  rw [if_neg hj]

/-- `⊥` is neutral for the maximum: the maximum of the masked row is the maximum of the entries inside the range. -/
private theorem foldMax_masked (lo n : Nat) (h : lo + n ≤ 128) (s : Fin 128 → EReal) :
    (Finset.univ : Finset (Fin 128)).fold max ⊥ (masked lo (lo + n) s)
      = (Finset.univ : Finset (Fin n)).fold max ⊥ (slice lo n h s) := by
  rw [foldMax_eq_sup, foldMax_eq_sup]
  apply le_antisymm
  · refine Finset.sup_le (fun j _ => ?_)
    by_cases hj : lo ≤ j.val ∧ j.val < lo + n
    · have hlt : j.val - lo < n := by omega
      have hj' : j = ⟨lo + (⟨j.val - lo, hlt⟩ : Fin n).val, by omega⟩ := by
        apply Fin.ext
        show j.val = lo + (j.val - lo)
        omega
      rw [hj', masked_inside lo n h s ⟨j.val - lo, hlt⟩]
      exact Finset.le_sup (f := slice lo n h s) (Finset.mem_univ _)
    · rw [masked_outside lo n s j hj]
      exact bot_le
  · refine Finset.sup_le (fun i _ => ?_)
    rw [← masked_inside lo n h s i]
    exact Finset.le_sup (f := masked lo (lo + n) s) (Finset.mem_univ _)

/-! ## The sum of the shifted exponentials -/

/-- The sum over the 128 columns is the sum over the columns inside the range: outside it the term is `exp ⊥ = 0`. -/
private theorem sum_masked (lo n : Nat) (h : lo + n ≤ 128) (s : Fin 128 → EReal) (M : EReal) :
    ∑ j : Fin 128, Ideal.exp (masked lo (lo + n) s j - M) = ∑ i : Fin n, Ideal.exp (slice lo n h s i - M) := by
  symm
  refine Finset.sum_of_injOn (fun i : Fin n => (⟨lo + i.val, by omega⟩ : Fin 128)) ?_ ?_ ?_ ?_
  · intro a _ b _ hab
    apply Fin.ext
    have := congrArg Fin.val hab
    simp only at this
    omega
  · intro a _
    exact Finset.mem_coe.2 (Finset.mem_univ _)
  · intro j _ hj
    have hout : ¬ (lo ≤ j.val ∧ j.val < lo + n) := by
      intro hin
      apply hj
      have hlt : j.val - lo < n := by omega
      refine ⟨⟨j.val - lo, hlt⟩, Finset.mem_coe.2 (Finset.mem_univ _), ?_⟩
      apply Fin.ext
      show lo + (j.val - lo) = j.val
      omega
    rw [masked_outside lo n s j hout, EReal.bot_sub, Ideal.exp_bot]
  · intro i _
    rw [masked_inside lo n h s i]

/-- The cast of a finite sum of real numbers is the sum of the casts. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Shifted by a real number, the exponentials of a non-empty row of real numbers add up to a positive real number. -/
private theorem expSum_pos {n : Nat} (hn : 0 < n) (f : Fin n → EReal) (hf : ∀ i, ∃ r : ℝ, f i = r) (m : ℝ) :
    ∃ S : ℝ, 0 < S ∧ ∑ i : Fin n, Ideal.exp (f i - (m : EReal)) = (S : EReal) := by
  choose r hr using hf
  haveI : Nonempty (Fin n) := ⟨⟨0, hn⟩⟩
  refine ⟨∑ i : Fin n, Real.exp (r i - m), Finset.sum_pos (fun i _ => Real.exp_pos _) Finset.univ_nonempty, ?_⟩
  rw [coe_sum]
  refine Finset.sum_congr rfl (fun i _ => ?_)
  rw [hr i, ← EReal.coe_sub, Ideal.exp_coe]

/-- Zero over a nonzero real number is zero. -/
private theorem div_zero_coe {S : ℝ} (hS : S ≠ 0) : Ideal.div 0 (S : EReal) = 0 := by
  rw [Ideal.div_coe hS, zero_mul]

/-! ## The three statements -/

/-- Inside the range, the masked softmax weight is the softmax weight of the range's own entries (the range is not
    empty and its entries are real numbers). -/
theorem segW_inside (lo n : Nat) (h : lo + n ≤ 128) (hn : 0 < n) (s : Fin 128 → EReal)
    (hs : ∀ i : Fin n, ∃ r : ℝ, slice lo n h s i = r) (i : Fin n) :
    segW lo (lo + n) s ⟨lo + i.val, by omega⟩ = refAttn (slice lo n h s) i := by
  unfold segW refAttn
  rw [foldMax_masked lo n h s, sum_masked lo n h s, masked_inside lo n h s i, refMax_eq_fold, zero_add]

/-- Outside the range the masked softmax weight is zero. -/
theorem segW_outside (lo n : Nat) (h : lo + n ≤ 128) (hn : 0 < n) (s : Fin 128 → EReal)
    (hs : ∀ i : Fin n, ∃ r : ℝ, slice lo n h s i = r) (j : Fin 128) (hj : ¬ (lo ≤ j.val ∧ j.val < lo + n)) :
    segW lo (lo + n) s j = 0 := by
  unfold segW
  rw [foldMax_masked lo n h s, sum_masked lo n h s, masked_outside lo n s j hj, EReal.bot_sub, Ideal.exp_bot]
  obtain ⟨m, hm⟩ := foldMax_real hn (slice lo n h s) hs
  obtain ⟨S, hSpos, hS⟩ := expSum_pos hn (slice lo n h s) hs m
  rw [hm, hS]
  exact div_zero_coe (ne_of_gt hSpos)

/-- A softmax weight of real scores is a real number. -/
theorem refAttn_real {n : Nat} (hn : 0 < n) (s : Fin n → EReal) (hs : ∀ i, ∃ r : ℝ, s i = r) (i : Fin n) :
    ∃ a : ℝ, refAttn s i = a := by
  unfold refAttn
  rw [refMax_eq_fold, zero_add]
  obtain ⟨m, hm⟩ := foldMax_real hn s hs
  obtain ⟨S, hSpos, hS⟩ := expSum_pos hn s hs m
  obtain ⟨r, hr⟩ := hs i
  rw [hm, hS, hr, ← EReal.coe_sub, Ideal.exp_coe, Ideal.div_coe (ne_of_gt hSpos), ← EReal.coe_mul]
  exact ⟨_, rfl⟩

end Cert.HMem

end
-- ==== Proof.Bridge.lean ====
/-
  The stacked read equals the level-by-level read when every input entry is a real number.

  * On each of the three column ranges `[0, 64)`, `[64, 96)`, `[96, 112)` the stacked key table and salience vector
    are that level's own, and dividing by `sqrtD` is multiplying by its reciprocal `invSqrtD`, so the stacked score
    row restricted to a range is that level's score row; these scores are real numbers.
  * A softmax masked to a range is that level's softmax inside the range and zero outside it, so the sum of the three
    masked softmax rows is, on each range, that level's softmax weight, and zero on the sixteen padding columns.
  * The sum over the 128 slots splits into the sums over the three ranges and the padding. On a range every factor is
    real, so the weight `third` moves out of the sum; on the padding every term is zero.
  * Both sides then add the three levels' reads from zero in the same order.
-/
import proofs.«105692_g850403525362_cont_9to1_m_493_2_alg».proof.Proof.Spec
import proofs.«105692_g850403525362_cont_9to1_m_493_2_alg».proof.Proof.RowMath
import Mathlib.Data.EReal.Operations
import Mathlib.Algebra.BigOperators.Fin
import Mathlib.Tactic.Choose
import Mathlib.Tactic.Ring
import Mathlib.Tactic.NormNum

noncomputable section

open scoped BigOperators

namespace Cert.HMem

open Idealize.ShloMosaic

/-! ## The constants -/

/-- The divisor's word denotes `14529495 / 2^19`. -/
theorem sqrtD_eq : sqrtD = ((14529495 / 524288 : ℝ) : EReal) := by
  unfold sqrtD
  simp [Ideal.ofBits, Ideal.ieee, -EReal.coe_mul]; norm_num

/-- The level weight's word denotes `11184811 / 2^25`. -/
theorem third_eq : third = ((11184811 / 33554432 : ℝ) : EReal) := by
  unfold third
  simp [Ideal.ofBits, Ideal.ieee, -EReal.coe_mul]; norm_num

/-- The level weight is a real number. -/
theorem third_real : ∃ r : ℝ, third = r := ⟨_, third_eq⟩

/-- Dividing by `sqrtD` is multiplying by `invSqrtD`, for every extended real. -/
theorem div_sqrtD (z : EReal) : Ideal.div z sqrtD = z * invSqrtD := by
  rw [sqrtD_eq, Ideal.div_coe (by norm_num) z, invSqrtD]
  norm_num

/-! ## Finite sums of real numbers inside the extended reals -/

/-- The inclusion of the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor moves out of a finite sum of products of real numbers. -/
theorem sum_mul_real {n : Nat} (a v : Fin n → EReal) (c : EReal)
    (ha : ∀ i, ∃ r : ℝ, a i = r) (hv : ∀ i, ∃ r : ℝ, v i = r) (hc : ∃ r : ℝ, c = r) :
    ∑ i, (a i * c) * v i = (∑ i, a i * v i) * c := by
  choose a' ha' using ha
  choose v' hv' using hv
  obtain ⟨c', rfl⟩ := hc
  simp only [ha', hv', ← EReal.coe_mul, ← coe_finset_sum]
  rw [Finset.sum_mul]
  refine congrArg _ (Finset.sum_congr rfl fun i _ => ?_)
  ring

/-! ## The stacked tables on each range -/

/-- Rows `0 … 63` of the stacked table are the first table's rows. -/
theorem stack2_lvl0 (a0 : Fin 64 → Fin 768 → EReal) (a1 : Fin 32 → Fin 768 → EReal) (a2 : Fin 16 → Fin 768 → EReal)
    (i : Fin 64) (h : 0 + i.val < 128) (e : Fin 768) : stack2 a0 a1 a2 ⟨0 + i.val, h⟩ e = a0 i e := by
  have hi := i.isLt
  unfold stack2
  rw [dif_pos (show (⟨0 + i.val, h⟩ : Fin 128).val < 64 by show 0 + i.val < 64; omega)]
  congr 2; simp

/-- Rows `64 … 95` of the stacked table are the second table's rows. -/
theorem stack2_lvl1 (a0 : Fin 64 → Fin 768 → EReal) (a1 : Fin 32 → Fin 768 → EReal) (a2 : Fin 16 → Fin 768 → EReal)
    (i : Fin 32) (h : 64 + i.val < 128) (e : Fin 768) : stack2 a0 a1 a2 ⟨64 + i.val, h⟩ e = a1 i e := by
  have hi := i.isLt
  unfold stack2
  rw [dif_neg (show ¬ (⟨64 + i.val, h⟩ : Fin 128).val < 64 by show ¬ 64 + i.val < 64; omega),
    dif_pos (show (⟨64 + i.val, h⟩ : Fin 128).val < 96 by show 64 + i.val < 96; omega)]
  congr 2; simp

/-- Rows `96 … 111` of the stacked table are the third table's rows. -/
theorem stack2_lvl2 (a0 : Fin 64 → Fin 768 → EReal) (a1 : Fin 32 → Fin 768 → EReal) (a2 : Fin 16 → Fin 768 → EReal)
    (i : Fin 16) (h : 96 + i.val < 128) (e : Fin 768) : stack2 a0 a1 a2 ⟨96 + i.val, h⟩ e = a2 i e := by
  have hi := i.isLt
  unfold stack2
  rw [dif_neg (show ¬ (⟨96 + i.val, h⟩ : Fin 128).val < 64 by show ¬ 96 + i.val < 64; omega),
    dif_neg (show ¬ (⟨96 + i.val, h⟩ : Fin 128).val < 96 by show ¬ 96 + i.val < 96; omega),
    dif_pos (show (⟨96 + i.val, h⟩ : Fin 128).val < 112 by show 96 + i.val < 112; omega)]
  congr 2; simp

/-- Rows `112 … 127` of the stacked table are zero. -/
theorem stack2_tail (a0 : Fin 64 → Fin 768 → EReal) (a1 : Fin 32 → Fin 768 → EReal) (a2 : Fin 16 → Fin 768 → EReal)
    (i : Fin 16) (h : 112 + i.val < 128) (e : Fin 768) : stack2 a0 a1 a2 ⟨112 + i.val, h⟩ e = 0 := by
  unfold stack2
  rw [dif_neg (show ¬ (⟨112 + i.val, h⟩ : Fin 128).val < 64 by show ¬ 112 + i.val < 64; omega),
    dif_neg (show ¬ (⟨112 + i.val, h⟩ : Fin 128).val < 96 by show ¬ 112 + i.val < 96; omega),
    dif_neg (show ¬ (⟨112 + i.val, h⟩ : Fin 128).val < 112 by show ¬ 112 + i.val < 112; omega)]

/-- Entries `0 … 63` of the stacked vector are the first vector's entries. -/
theorem stack1_lvl0 (a0 : Fin 64 → EReal) (a1 : Fin 32 → EReal) (a2 : Fin 16 → EReal)
    (i : Fin 64) (h : 0 + i.val < 128) : stack1 a0 a1 a2 ⟨0 + i.val, h⟩ = a0 i := by
  have hi := i.isLt
  unfold stack1
  rw [dif_pos (show (⟨0 + i.val, h⟩ : Fin 128).val < 64 by show 0 + i.val < 64; omega)]
  congr 1; simp

/-- Entries `64 … 95` of the stacked vector are the second vector's entries. -/
theorem stack1_lvl1 (a0 : Fin 64 → EReal) (a1 : Fin 32 → EReal) (a2 : Fin 16 → EReal)
    (i : Fin 32) (h : 64 + i.val < 128) : stack1 a0 a1 a2 ⟨64 + i.val, h⟩ = a1 i := by
  have hi := i.isLt
  unfold stack1
  rw [dif_neg (show ¬ (⟨64 + i.val, h⟩ : Fin 128).val < 64 by show ¬ 64 + i.val < 64; omega),
    dif_pos (show (⟨64 + i.val, h⟩ : Fin 128).val < 96 by show 64 + i.val < 96; omega)]
  congr 1; simp

/-- Entries `96 … 111` of the stacked vector are the third vector's entries. -/
theorem stack1_lvl2 (a0 : Fin 64 → EReal) (a1 : Fin 32 → EReal) (a2 : Fin 16 → EReal)
    (i : Fin 16) (h : 96 + i.val < 128) : stack1 a0 a1 a2 ⟨96 + i.val, h⟩ = a2 i := by
  have hi := i.isLt
  unfold stack1
  rw [dif_neg (show ¬ (⟨96 + i.val, h⟩ : Fin 128).val < 64 by show ¬ 96 + i.val < 64; omega),
    dif_neg (show ¬ (⟨96 + i.val, h⟩ : Fin 128).val < 96 by show ¬ 96 + i.val < 96; omega),
    dif_pos (show (⟨96 + i.val, h⟩ : Fin 128).val < 112 by show 96 + i.val < 112; omega)]
  congr 1; simp

/-! ## The scores agree on each range, and are real -/

section Scores

variable (qrow : Fin 768 → EReal)
  (k0 : Fin 64 → Fin 768 → EReal) (s0 : Fin 64 → EReal)
  (k1 : Fin 32 → Fin 768 → EReal) (s1 : Fin 32 → EReal)
  (k2 : Fin 16 → Fin 768 → EReal) (s2 : Fin 16 → EReal)

/-- On the first range the stacked score row is the first level's score row. -/
theorem slice_kerScore_lvl0 :
    slice 0 64 (by omega) (kerScore qrow (stack2 k0 k1 k2) (stack1 s0 s1 s2)) = refScore qrow k0 s0 := by
  funext i
  unfold slice kerScore refScore
  rw [div_sqrtD, stack1_lvl0]
  simp only [stack2_lvl0]

/-- On the second range the stacked score row is the second level's score row. -/
theorem slice_kerScore_lvl1 :
    slice 64 32 (by omega) (kerScore qrow (stack2 k0 k1 k2) (stack1 s0 s1 s2)) = refScore qrow k1 s1 := by
  funext i
  unfold slice kerScore refScore
  rw [div_sqrtD, stack1_lvl1]
  simp only [stack2_lvl1]

/-- On the third range the stacked score row is the third level's score row. -/
theorem slice_kerScore_lvl2 :
    slice 96 16 (by omega) (kerScore qrow (stack2 k0 k1 k2) (stack1 s0 s1 s2)) = refScore qrow k2 s2 := by
  funext i
  unfold slice kerScore refScore
  rw [div_sqrtD, stack1_lvl2]
  simp only [stack2_lvl2]

end Scores

/-- A level's scores of real inputs are real numbers. -/
theorem refScore_real {n : Nat} (qrow : Fin 768 → EReal) (k : Fin n → Fin 768 → EReal) (s : Fin n → EReal)
    (hq : ∀ e, ∃ r : ℝ, qrow e = r) (hk : ∀ j e, ∃ r : ℝ, k j e = r) (hs : ∀ j, ∃ r : ℝ, s j = r) (j : Fin n) :
    ∃ r : ℝ, refScore qrow k s j = r := by
  choose q' hq' using hq
  choose k' hk' using hk
  choose s' hs' using hs
  refine ⟨(∑ e, q' e * k' j e) * (524288 / 14529495) + s' j, ?_⟩
  rw [refScore, div_sqrtD, invSqrtD, EReal.coe_add, EReal.coe_mul, coe_finset_sum]
  simp only [hq', hk', hs', EReal.coe_mul]

/-! ## The added weight rows on each range -/

section Weights

variable (S : Fin 128 → EReal)
  (h0 : ∀ i : Fin 64, ∃ r : ℝ, slice 0 64 (by omega) S i = r)
  (h1 : ∀ i : Fin 32, ∃ r : ℝ, slice 64 32 (by omega) S i = r)
  (h2 : ∀ i : Fin 16, ∃ r : ℝ, slice 96 16 (by omega) S i = r)

include h0 h1 h2

/-- On the first range only the first softmax contributes. -/
theorem kerP_lvl0 (i : Fin 64) (h : 0 + i.val < 128) :
    kerP S ⟨0 + i.val, h⟩ = refAttn (slice 0 64 (by omega) S) i := by
  have hi := i.isLt
  have a : segW 0 64 S ⟨0 + i.val, h⟩ = refAttn (slice 0 64 (by omega) S) i :=
    segW_inside 0 64 (by omega) (by omega) S h0 i
  have b : segW 64 96 S ⟨0 + i.val, h⟩ = 0 :=
    segW_outside 64 32 (by omega) (by omega) S h1 ⟨0 + i.val, h⟩ (by show ¬ (64 ≤ 0 + i.val ∧ 0 + i.val < 64 + 32); omega)
  have c : segW 96 112 S ⟨0 + i.val, h⟩ = 0 :=
    segW_outside 96 16 (by omega) (by omega) S h2 ⟨0 + i.val, h⟩ (by show ¬ (96 ≤ 0 + i.val ∧ 0 + i.val < 96 + 16); omega)
  rw [kerP, a, b, c, zero_add, add_zero, add_zero]

/-- On the second range only the second softmax contributes. -/
theorem kerP_lvl1 (i : Fin 32) (h : 64 + i.val < 128) :
    kerP S ⟨64 + i.val, h⟩ = refAttn (slice 64 32 (by omega) S) i := by
  have hi := i.isLt
  have a : segW 0 64 S ⟨64 + i.val, h⟩ = 0 :=
    segW_outside 0 64 (by omega) (by omega) S h0 ⟨64 + i.val, h⟩ (by show ¬ (0 ≤ 64 + i.val ∧ 64 + i.val < 0 + 64); omega)
  have b : segW 64 96 S ⟨64 + i.val, h⟩ = refAttn (slice 64 32 (by omega) S) i :=
    segW_inside 64 32 (by omega) (by omega) S h1 i
  have c : segW 96 112 S ⟨64 + i.val, h⟩ = 0 :=
    segW_outside 96 16 (by omega) (by omega) S h2 ⟨64 + i.val, h⟩ (by show ¬ (96 ≤ 64 + i.val ∧ 64 + i.val < 96 + 16); omega)
  rw [kerP, a, b, c, zero_add, zero_add, add_zero]

/-- On the third range only the third softmax contributes. -/
theorem kerP_lvl2 (i : Fin 16) (h : 96 + i.val < 128) :
    kerP S ⟨96 + i.val, h⟩ = refAttn (slice 96 16 (by omega) S) i := by
  have hi := i.isLt
  have a : segW 0 64 S ⟨96 + i.val, h⟩ = 0 :=
    segW_outside 0 64 (by omega) (by omega) S h0 ⟨96 + i.val, h⟩ (by show ¬ (0 ≤ 96 + i.val ∧ 96 + i.val < 0 + 64); omega)
  have b : segW 64 96 S ⟨96 + i.val, h⟩ = 0 :=
    segW_outside 64 32 (by omega) (by omega) S h1 ⟨96 + i.val, h⟩ (by show ¬ (64 ≤ 96 + i.val ∧ 96 + i.val < 64 + 32); omega)
  have c : segW 96 112 S ⟨96 + i.val, h⟩ = refAttn (slice 96 16 (by omega) S) i :=
    segW_inside 96 16 (by omega) (by omega) S h2 i
  rw [kerP, a, b, c, zero_add, zero_add, zero_add]

/-- On the padding no softmax contributes. -/
theorem kerP_tail (i : Fin 16) (h : 112 + i.val < 128) : kerP S ⟨112 + i.val, h⟩ = 0 := by
  have a : segW 0 64 S ⟨112 + i.val, h⟩ = 0 :=
    segW_outside 0 64 (by omega) (by omega) S h0 ⟨112 + i.val, h⟩ (by show ¬ (0 ≤ 112 + i.val ∧ 112 + i.val < 0 + 64); omega)
  have b : segW 64 96 S ⟨112 + i.val, h⟩ = 0 :=
    segW_outside 64 32 (by omega) (by omega) S h1 ⟨112 + i.val, h⟩ (by show ¬ (64 ≤ 112 + i.val ∧ 112 + i.val < 64 + 32); omega)
  have c : segW 96 112 S ⟨112 + i.val, h⟩ = 0 :=
    segW_outside 96 16 (by omega) (by omega) S h2 ⟨112 + i.val, h⟩ (by show ¬ (96 ≤ 112 + i.val ∧ 112 + i.val < 96 + 16); omega)
  rw [kerP, a, b, c, zero_add, zero_add, zero_add]

end Weights

/-! ## A sum over the 128 slots, range by range -/

/-- A sum over `a + b` slots is the sum over the first `a` plus the sum over the last `b`. -/
theorem sum_split {M : Type*} [AddCommMonoid M] (a b : Nat) (f : Fin (a + b) → M) :
    ∑ j, f j = ∑ i : Fin a, f ⟨i.val, by omega⟩ + ∑ i : Fin b, f ⟨a + i.val, by omega⟩ :=
  Fin.sum_univ_add f

/-- A sum over the 128 slots is the sum of the sums over the three ranges and the padding. -/
theorem sum_split128 {M : Type*} [AddCommMonoid M] (f : Fin 128 → M) :
    ∑ j, f j = ((∑ i : Fin 64, f ⟨0 + i.val, by omega⟩ + ∑ i : Fin 32, f ⟨64 + i.val, by omega⟩)
      + ∑ i : Fin 16, f ⟨96 + i.val, by omega⟩) + ∑ i : Fin 16, f ⟨112 + i.val, by omega⟩ := by
  have e1 : ∑ j : Fin 128, f j = ∑ i : Fin 64, f ⟨i.val, by omega⟩ + ∑ i : Fin 64, f ⟨64 + i.val, by omega⟩ :=
    sum_split 64 64 f
  have e2 : ∑ i : Fin 64, f ⟨64 + i.val, by omega⟩
      = ∑ i : Fin 32, f ⟨64 + i.val, by omega⟩ + ∑ i : Fin 32, f ⟨64 + (32 + i.val), by omega⟩ :=
    sum_split 32 32 (fun i : Fin (32 + 32) => f ⟨64 + i.val, by omega⟩)
  have e3 : ∑ i : Fin 32, f ⟨64 + (32 + i.val), by omega⟩
      = ∑ i : Fin 16, f ⟨64 + (32 + i.val), by omega⟩ + ∑ i : Fin 16, f ⟨64 + (32 + (16 + i.val)), by omega⟩ :=
    sum_split 16 16 (fun i : Fin (16 + 16) => f ⟨64 + (32 + i.val), by omega⟩)
  rw [e1, e2, e3, ← add_assoc, ← add_assoc]
  refine congrArg₂ (· + ·) (congrArg₂ (· + ·) (congrArg₂ (· + ·) ?_ rfl) ?_) ?_
  · exact Finset.sum_congr rfl fun i _ => congrArg f (Fin.ext (Nat.zero_add i.val).symm)
  · exact Finset.sum_congr rfl fun i _ => congrArg f (Fin.ext (show 64 + (32 + i.val) = 96 + i.val by omega))
  · exact Finset.sum_congr rfl fun i _ => congrArg f (Fin.ext (show 64 + (32 + (16 + i.val)) = 112 + i.val by omega))

/-! ## The two reads agree -/

/-- The stacked read of real inputs is the level-by-level read. -/
theorem kerOut_eq_refOut (qrow : Fin 768 → EReal)
    (k0 v0 : Fin 64 → Fin 768 → EReal) (s0 : Fin 64 → EReal)
    (k1 v1 : Fin 32 → Fin 768 → EReal) (s1 : Fin 32 → EReal)
    (k2 v2 : Fin 16 → Fin 768 → EReal) (s2 : Fin 16 → EReal)
    (hq : ∀ e, ∃ r : ℝ, qrow e = r)
    (hk0 : ∀ j e, ∃ r : ℝ, k0 j e = r) (hv0 : ∀ j e, ∃ r : ℝ, v0 j e = r) (hs0 : ∀ j, ∃ r : ℝ, s0 j = r)
    (hk1 : ∀ j e, ∃ r : ℝ, k1 j e = r) (hv1 : ∀ j e, ∃ r : ℝ, v1 j e = r) (hs1 : ∀ j, ∃ r : ℝ, s1 j = r)
    (hk2 : ∀ j e, ∃ r : ℝ, k2 j e = r) (hv2 : ∀ j e, ∃ r : ℝ, v2 j e = r) (hs2 : ∀ j, ∃ r : ℝ, s2 j = r)
    (d : Fin 768) :
    kerOut qrow (stack2 k0 k1 k2) (stack1 s0 s1 s2) (stack2 v0 v1 v2) d
      = refOut qrow k0 v0 s0 k1 v1 s1 k2 v2 s2 d := by
  unfold kerOut refOut refLevel refRead
  have e0 := slice_kerScore_lvl0 qrow k0 s0 k1 s1 k2 s2
  have e1 := slice_kerScore_lvl1 qrow k0 s0 k1 s1 k2 s2
  have e2 := slice_kerScore_lvl2 qrow k0 s0 k1 s1 k2 s2
  have r0 := refScore_real qrow k0 s0 hq hk0 hs0
  have r1 := refScore_real qrow k1 s1 hq hk1 hs1
  have r2 := refScore_real qrow k2 s2 hq hk2 hs2
  generalize kerScore qrow (stack2 k0 k1 k2) (stack1 s0 s1 s2) = S at e0 e1 e2 ⊢
  have h0 : ∀ i : Fin 64, ∃ r : ℝ, slice 0 64 (by omega) S i = r := by rw [e0]; exact r0
  have h1 : ∀ i : Fin 32, ∃ r : ℝ, slice 64 32 (by omega) S i = r := by rw [e1]; exact r1
  have h2 : ∀ i : Fin 16, ∃ r : ℝ, slice 96 16 (by omega) S i = r := by rw [e2]; exact r2
  have A : ∑ i : Fin 64, (kerP S ⟨0 + i.val, by omega⟩ * third) * stack2 v0 v1 v2 ⟨0 + i.val, by omega⟩ d
      = (∑ j, refAttn (refScore qrow k0 s0) j * v0 j d) * third := by
    rw [← sum_mul_real _ _ _ (refAttn_real (by omega) _ r0) (fun i => hv0 i d) third_real]
    refine Finset.sum_congr rfl fun i _ => ?_
    rw [kerP_lvl0 S h0 h1 h2 i, stack2_lvl0, e0]
  have B : ∑ i : Fin 32, (kerP S ⟨64 + i.val, by omega⟩ * third) * stack2 v0 v1 v2 ⟨64 + i.val, by omega⟩ d
      = (∑ j, refAttn (refScore qrow k1 s1) j * v1 j d) * third := by
    rw [← sum_mul_real _ _ _ (refAttn_real (by omega) _ r1) (fun i => hv1 i d) third_real]
    refine Finset.sum_congr rfl fun i _ => ?_
    rw [kerP_lvl1 S h0 h1 h2 i, stack2_lvl1, e1]
  have C : ∑ i : Fin 16, (kerP S ⟨96 + i.val, by omega⟩ * third) * stack2 v0 v1 v2 ⟨96 + i.val, by omega⟩ d
      = (∑ j, refAttn (refScore qrow k2 s2) j * v2 j d) * third := by
    rw [← sum_mul_real _ _ _ (refAttn_real (by omega) _ r2) (fun i => hv2 i d) third_real]
    refine Finset.sum_congr rfl fun i _ => ?_
    rw [kerP_lvl2 S h0 h1 h2 i, stack2_lvl2, e2]
  have Z : ∑ i : Fin 16, (kerP S ⟨112 + i.val, by omega⟩ * third) * stack2 v0 v1 v2 ⟨112 + i.val, by omega⟩ d = 0 :=
    Finset.sum_eq_zero fun i _ => by rw [kerP_tail S h0 h1 h2 i, zero_mul, zero_mul]
  rw [sum_split128 (fun j => (kerP S j * third) * stack2 v0 v1 v2 j d)]
  rw [A, B, C, Z, add_zero, zero_add]

/-- The stacked form and the level-by-level form give the same result at every coordinate. -/
theorem ker_eq_ref (x : Inp) (hx : x.Finite) (b : Fin 4) (t : Fin 4096) (d : Fin 768) : x.ker b t d = x.ref b t d :=
  kerOut_eq_refOut (x.q b t) x.k0 x.v0 x.s0 x.k1 x.v1 x.s1 x.k2 x.v2 x.s2 (hx.q b t)
    hx.k0 hx.v0 hx.s0 hx.k1 hx.v1 hx.s1 hx.k2 hx.v2 hx.s2 d

end Cert.HMem

end
-- ==== Proof.RefRead.lean ====
/-
  A maximum taken along the last axis of a rank-3 array, read at one row: the reduce from the word of −∞ at row
  (b, t) of an array of shape [4, 4096, n] is the fold of `max` from `⊥` over the n entries of that row. This is the
  one operation of a softmax level whose element is a fold over an axis rather than one element of its operand.
-/
import Idealize.ShloMosaic.Lib.ValueIdx
import Idealize.ShloMosaic.PureOps.Ideal.Laws
import Idealize.ShloMosaic.PureOps.Reduce

noncomputable section

namespace Cert.ReferenceIdeal.RefRead

open Idealize.ShloMosaic Idealize.ShloMosaic.ValueIdx

variable {n : Nat}

/-- The word `0xFF800000` is −∞. -/
theorem ofBits_negInf : Ideal.ofBits .f32 0xFF800000#32 = (⊥ : EReal) := by
  simp [Ideal.ofBits, Ideal.ieee]

/-- Row (b, t) with the coordinate `k` put back on the last axis is (b, t, k). -/
theorem lift_lastAxis (h : (⟨3, ![4, 4096, n]⟩ : Shape).Reduces [2] (⟨2, ![4, 4096]⟩ : Shape)) (b : Fin 4) (t : Fin 4096)
    (k : Fin ((⟨3, ![4, 4096, n]⟩ : Shape).size 2)) :
    h.lift (ix2 b t) k = ix3 b t (⟨k.val, k.isLt⟩ : Fin n) := by
  funext c; apply Fin.ext
  fin_cases c <;> rfl

/-- From −∞ the reduce with a maximum body along the last axis, at row (b, t), is the fold of `max` from `⊥` over
    that row's entries. -/
theorem hostReduce_max_lastAxis (x : FVec Ideal ⟨3, ![4, 4096, n]⟩ .f32)
    (h' : (⟨3, ![4, 4096, n]⟩ : Shape).ReducesTo [2] (⟨2, ![4, 4096]⟩ : Shape))
    (hu : 0 < (⟨0, ![]⟩ : Shape).numel) (b : Fin 4) (t : Fin 4096) :
    Host.reduce FloatOps.maximumf x (constant (F := Ideal) (⟨0, ![]⟩ : Shape) .f32 0xFF800000#32) h' hu (ix2 b t)
      = (Finset.univ : Finset (Fin n)).fold max ⊥ (fun j : Fin n => x (ix3 b t j)) := by
  have h : (⟨3, ![4, 4096, n]⟩ : Shape).Reduces [2] (⟨2, ![4, 4096]⟩ : Shape) := ⟨h'.1, by decide, h'.2⟩
  rw [Host.reduce_eq_fold_single FloatOps.maximumf x _ h' h hu]
  have hf : (x ∘ h.lift (ix2 b t)) = fun k : Fin n => x (ix3 b t k) :=
    funext fun k => congrArg x (lift_lastAxis h b t k)
  have hi : (constant (F := Ideal) (⟨0, ![]⟩ : Shape) .f32 0xFF800000#32) (Shape.Idx.first hu) = (⊥ : EReal) := ofBits_negInf
  rw [hi]
  exact congrArg (fun f => Finset.fold max (⊥ : EReal) f (Finset.univ : Finset (Fin n))) hf

end Cert.ReferenceIdeal.RefRead

end
-- ==== Proof.RefValue.lean ====
/-
  The level-by-level program's result, read back as the level-by-level form of the mathematical statement: at every
  index (b, t, d) the printed reference's result is `refOut` of query row (b, t) against the three levels' keys, values
  and saliences, and its run leaves the ten argument arrays as they were.
-/
import proofs.«105692_g850403525362_cont_9to1_m_493_2_alg».proof.Proof.Gen.ReferenceIdeal.Run
import proofs.«105692_g850403525362_cont_9to1_m_493_2_alg».proof.Proof.Gen.ReferenceIdeal.Read
import proofs.«105692_g850403525362_cont_9to1_m_493_2_alg».proof.Proof.Spec
import proofs.«105692_g850403525362_cont_9to1_m_493_2_alg».proof.Proof.RefRead
import Idealize.ShloMosaic.Lib.ValueIdx
import Idealize.ShloMosaic.PureOps.Ideal.Laws

noncomputable section

open scoped BigOperators

namespace Cert.ReferenceIdeal.RefVal

open Cert.ReferenceIdeal Cert.ReferenceIdeal.Gen Cert.ReferenceIdeal.Read Cert.ReferenceIdeal.RefRead
open Idealize.ShloMosaic Idealize.ShloMosaic.TcCoe Idealize.ShloMosaic.ValueIdx Idealize.ShloMosaic.StableHlo
open Idealize.SL Idealize.SL.Sem
open Cert.HMem

/-- The launch memory's ten argument arrays on core `c`, read by coordinates: the inputs of the mathematical statement. -/
def inp (m : (ℓ : Loc nD τ sig) → Buf (Elt Ideal) ℓ) (c : Dev nD) : Cert.HMem.Inp where
  q b t e := (m ((c.tc : Thread nD τ).loc main_arg0) : S4x4096x768.Idx → EReal) (ix3 b t e)
  k0 j e := (m ((c.tc : Thread nD τ).loc main_arg1) : S64x768.Idx → EReal) (ix2 j e)
  v0 j e := (m ((c.tc : Thread nD τ).loc main_arg2) : S64x768.Idx → EReal) (ix2 j e)
  s0 j := (m ((c.tc : Thread nD τ).loc main_arg3) : S64.Idx → EReal) (ix1 j)
  k1 j e := (m ((c.tc : Thread nD τ).loc main_arg4) : S32x768.Idx → EReal) (ix2 j e)
  v1 j e := (m ((c.tc : Thread nD τ).loc main_arg5) : S32x768.Idx → EReal) (ix2 j e)
  s1 j := (m ((c.tc : Thread nD τ).loc main_arg6) : S32.Idx → EReal) (ix1 j)
  k2 j e := (m ((c.tc : Thread nD τ).loc main_arg7) : S16x768.Idx → EReal) (ix2 j e)
  v2 j e := (m ((c.tc : Thread nD τ).loc main_arg8) : S16x768.Idx → EReal) (ix2 j e)
  s2 j := (m ((c.tc : Thread nD τ).loc main_arg9) : S16.Idx → EReal) (ix1 j)

/-! ## Arrays by coordinates -/

/-- Row (b, t) of the query array. -/
abbrev qRow (x : S4x4096x768.Idx → EReal) (b : Fin 4) (t : Fin 4096) : Fin 768 → EReal := fun e => x (ix3 b t e)
/-- A table of `n` rows of 768 features, by coordinates. -/
abbrev tab {n : Nat} (x : (⟨2, ![n, 768]⟩ : Shape).Idx → EReal) : Fin n → Fin 768 → EReal := fun j e => x (ix2 j e)
/-- A vector of `n` saliences, by coordinate. -/
abbrev vec {n : Nat} (x : (⟨1, ![n]⟩ : Shape).Idx → EReal) : Fin n → EReal := fun j => x (ix1 j)

/-! ## The first level: 64 slots -/

section Level0
variable (x0 : (⟨S4x4096x768, .f32⟩ : BufTy).Contents (Elt Ideal)) (x1 x2 : (⟨S64x768, .f32⟩ : BufTy).Contents (Elt Ideal))
  (x3 : (⟨S64, .f32⟩ : BufTy).Contents (Elt Ideal)) (b : Fin 4) (t : Fin 4096)

/-! The composed index functions of the level's layout operations, at coordinates. -/
theorem lidx_v1 (j : Fin 64) (k : Fin 768) : lidx_main_v1 (ix3 b t j) k = ix3 b t k := by funext a; fin_cases a <;> rfl
theorem ridx_v1 (j : Fin 64) (k : Fin 768) : ridx_main_v1 (ix3 b t j) k = ix2 j k := by funext a; fin_cases a <;> rfl
theorem idx_v4_v5 (j : Fin 64) : idx_main_v4 (idx_main_v5 (ix3 b t j)) = ix1 j := by funext a; fin_cases a; rfl
theorem idx_v10_v11 (j : Fin 64) : idx_main_v10 (idx_main_v11 (ix3 b t j)) = ix2 b t := by funext a; fin_cases a <;> rfl
theorem idx_v14 (k : Fin 64) : idx_main_v14 (ix2 b t) k = ix3 b t k := by funext a; fin_cases a <;> rfl
theorem idx_v15_v16 (j : Fin 64) : idx_main_v15 (idx_main_v16 (ix3 b t j)) = ix2 b t := by funext a; fin_cases a <;> rfl
theorem lidx_v18 (d : Fin 768) (k : Fin 64) : lidx_main_v18 (ix3 b t d) k = ix3 b t k := by funext a; fin_cases a <;> rfl
theorem ridx_v18 (d : Fin 768) (k : Fin 64) : ridx_main_v18 (ix3 b t d) k = ix2 k d := by funext a; fin_cases a <;> rfl

/-- The score of slot `j`: the contraction over the features, over the broadcast divisor, plus the slot's salience. -/
theorem score0 (j : Fin 64) :
    val_main_v6 (F := Ideal) x0 x1 x3 (ix3 b t j) = refScore (qRow x0 b t) (tab x1) (vec x3) j := by
  rw [val_main_v6_apply, val_main_v3_apply, val_main_v1_apply, val_main_v2_apply, val_main_cst_0_apply,
    val_main_v5_apply, val_main_v4_apply]
  simp only [lidx_v1, ridx_v1, idx_v4_v5, Ideal.hostDivf_def, Ideal.addf_def, Ideal.ofBits_def]
  rfl

/-- The row maximum: the reduce from −∞ along the slots, joined once more with a splat of −∞. -/
theorem max0 : val_main_v9 (F := Ideal) x0 x1 x3 (ix2 b t) = refMax (refScore (qRow x0 b t) (tab x1) (vec x3)) := by
  have hfold : val_main_v7 (F := Ideal) x0 x1 x3 (ix2 b t)
      = (Finset.univ : Finset (Fin 64)).fold max ⊥ (fun j : Fin 64 => val_main_v6 (F := Ideal) x0 x1 x3 (ix3 b t j)) :=
    hostReduce_max_lastAxis (val_main_v6 (F := Ideal) x0 x1 x3) _ _ b t
  rw [val_main_v9_apply, val_main_v8_apply, val_main_cst_2_apply, hfold]
  simp only [score0, Ideal.maximumf_def, Ideal.ofBits_def, ofBits_negInf]
  rfl

/-- The shifted exponential of slot `j`. -/
theorem exp0 (j : Fin 64) :
    val_main_v13 (F := Ideal) x0 x1 x3 (ix3 b t j)
      = Ideal.exp (refScore (qRow x0 b t) (tab x1) (vec x3) j - refMax (refScore (qRow x0 b t) (tab x1) (vec x3))) := by
  rw [val_main_v13_apply, val_main_v12_apply, val_main_v11_apply, val_main_v10_apply, idx_v10_v11, score0, max0]
  simp only [Ideal.hostUnary_exp_def, Ideal.subf_def]

/-- The row's sum of exponentials, accumulated from the zero word. -/
theorem sum0 :
    val_main_v14 (F := Ideal) x0 x1 x3 (ix2 b t)
      = 0 + ∑ i : Fin 64, Ideal.exp (refScore (qRow x0 b t) (tab x1) (vec x3) i - refMax (refScore (qRow x0 b t) (tab x1) (vec x3))) := by
  rw [val_main_v14_apply, val_main_cst_3_apply]
  simp only [idx_v14, exp0, Ideal.ofBits_def, Ideal.ofBits_zero_f32]

/-- The softmax weight of slot `j`. -/
theorem attn0 (j : Fin 64) :
    val_main_v17 (F := Ideal) x0 x1 x3 (ix3 b t j) = refAttn (refScore (qRow x0 b t) (tab x1) (vec x3)) j := by
  rw [val_main_v17_apply, val_main_v16_apply, val_main_v15_apply, idx_v15_v16, exp0, sum0]
  simp only [Ideal.hostDivf_def]
  rfl

/-- The level's contribution at feature `d`: the weights against the value rows, times the broadcast weight of a level. -/
theorem level0 (d : Fin 768) :
    val_main_v20 (F := Ideal) x0 x1 x2 x3 (ix3 b t d) = refLevel (qRow x0 b t) (tab x1) (tab x2) (vec x3) d := by
  rw [val_main_v20_apply, val_main_v18_apply, val_main_v19_apply, val_main_cst_4_apply]
  simp only [lidx_v18, ridx_v18, attn0, Ideal.mulf_def, Ideal.ofBits_def]
  rfl

end Level0

/-! ## The second level: 32 slots -/

section Level1
variable (x0 : (⟨S4x4096x768, .f32⟩ : BufTy).Contents (Elt Ideal)) (x4 x5 : (⟨S32x768, .f32⟩ : BufTy).Contents (Elt Ideal))
  (x6 : (⟨S32, .f32⟩ : BufTy).Contents (Elt Ideal)) (b : Fin 4) (t : Fin 4096)

/-! The composed index functions of the level's layout operations, at coordinates. -/
theorem lidx_v22 (j : Fin 32) (k : Fin 768) : lidx_main_v22 (ix3 b t j) k = ix3 b t k := by funext a; fin_cases a <;> rfl
theorem ridx_v22 (j : Fin 32) (k : Fin 768) : ridx_main_v22 (ix3 b t j) k = ix2 j k := by funext a; fin_cases a <;> rfl
theorem idx_v25_v26 (j : Fin 32) : idx_main_v25 (idx_main_v26 (ix3 b t j)) = ix1 j := by funext a; fin_cases a; rfl
theorem idx_v31_v32 (j : Fin 32) : idx_main_v31 (idx_main_v32 (ix3 b t j)) = ix2 b t := by funext a; fin_cases a <;> rfl
theorem idx_v35 (k : Fin 32) : idx_main_v35 (ix2 b t) k = ix3 b t k := by funext a; fin_cases a <;> rfl
theorem idx_v36_v37 (j : Fin 32) : idx_main_v36 (idx_main_v37 (ix3 b t j)) = ix2 b t := by funext a; fin_cases a <;> rfl
theorem lidx_v39 (d : Fin 768) (k : Fin 32) : lidx_main_v39 (ix3 b t d) k = ix3 b t k := by funext a; fin_cases a <;> rfl
theorem ridx_v39 (d : Fin 768) (k : Fin 32) : ridx_main_v39 (ix3 b t d) k = ix2 k d := by funext a; fin_cases a <;> rfl

/-- The score of slot `j`: the contraction over the features, over the broadcast divisor, plus the slot's salience. -/
theorem score1 (j : Fin 32) :
    val_main_v27 (F := Ideal) x0 x4 x6 (ix3 b t j) = refScore (qRow x0 b t) (tab x4) (vec x6) j := by
  rw [val_main_v27_apply, val_main_v24_apply, val_main_v22_apply, val_main_v23_apply, val_main_cst_5_apply,
    val_main_v26_apply, val_main_v25_apply]
  simp only [lidx_v22, ridx_v22, idx_v25_v26, Ideal.hostDivf_def, Ideal.addf_def, Ideal.ofBits_def]
  rfl

/-- The row maximum: the reduce from −∞ along the slots, joined once more with a splat of −∞. -/
theorem max1 : val_main_v30 (F := Ideal) x0 x4 x6 (ix2 b t) = refMax (refScore (qRow x0 b t) (tab x4) (vec x6)) := by
  have hfold : val_main_v28 (F := Ideal) x0 x4 x6 (ix2 b t)
      = (Finset.univ : Finset (Fin 32)).fold max ⊥ (fun j : Fin 32 => val_main_v27 (F := Ideal) x0 x4 x6 (ix3 b t j)) :=
    hostReduce_max_lastAxis (val_main_v27 (F := Ideal) x0 x4 x6) _ _ b t
  rw [val_main_v30_apply, val_main_v29_apply, val_main_cst_7_apply, hfold]
  simp only [score1, Ideal.maximumf_def, Ideal.ofBits_def, ofBits_negInf]
  rfl

/-- The shifted exponential of slot `j`. -/
theorem exp1 (j : Fin 32) :
    val_main_v34 (F := Ideal) x0 x4 x6 (ix3 b t j)
      = Ideal.exp (refScore (qRow x0 b t) (tab x4) (vec x6) j - refMax (refScore (qRow x0 b t) (tab x4) (vec x6))) := by
  rw [val_main_v34_apply, val_main_v33_apply, val_main_v32_apply, val_main_v31_apply, idx_v31_v32, score1, max1]
  simp only [Ideal.hostUnary_exp_def, Ideal.subf_def]

/-- The row's sum of exponentials, accumulated from the zero word. -/
theorem sum1 :
    val_main_v35 (F := Ideal) x0 x4 x6 (ix2 b t)
      = 0 + ∑ i : Fin 32, Ideal.exp (refScore (qRow x0 b t) (tab x4) (vec x6) i - refMax (refScore (qRow x0 b t) (tab x4) (vec x6))) := by
  rw [val_main_v35_apply, val_main_cst_8_apply]
  simp only [idx_v35, exp1, Ideal.ofBits_def, Ideal.ofBits_zero_f32]

/-- The softmax weight of slot `j`. -/
theorem attn1 (j : Fin 32) :
    val_main_v38 (F := Ideal) x0 x4 x6 (ix3 b t j) = refAttn (refScore (qRow x0 b t) (tab x4) (vec x6)) j := by
  rw [val_main_v38_apply, val_main_v37_apply, val_main_v36_apply, idx_v36_v37, exp1, sum1]
  simp only [Ideal.hostDivf_def]
  rfl

/-- The level's contribution at feature `d`: the weights against the value rows, times the broadcast weight of a level. -/
theorem level1 (d : Fin 768) :
    val_main_v41 (F := Ideal) x0 x4 x5 x6 (ix3 b t d) = refLevel (qRow x0 b t) (tab x4) (tab x5) (vec x6) d := by
  rw [val_main_v41_apply, val_main_v39_apply, val_main_v40_apply, val_main_cst_9_apply]
  simp only [lidx_v39, ridx_v39, attn1, Ideal.mulf_def, Ideal.ofBits_def]
  rfl

end Level1

/-! ## The third level: 16 slots -/

section Level2
variable (x0 : (⟨S4x4096x768, .f32⟩ : BufTy).Contents (Elt Ideal)) (x7 x8 : (⟨S16x768, .f32⟩ : BufTy).Contents (Elt Ideal))
  (x9 : (⟨S16, .f32⟩ : BufTy).Contents (Elt Ideal)) (b : Fin 4) (t : Fin 4096)

/-! The composed index functions of the level's layout operations, at coordinates. -/
theorem lidx_v43 (j : Fin 16) (k : Fin 768) : lidx_main_v43 (ix3 b t j) k = ix3 b t k := by funext a; fin_cases a <;> rfl
theorem ridx_v43 (j : Fin 16) (k : Fin 768) : ridx_main_v43 (ix3 b t j) k = ix2 j k := by funext a; fin_cases a <;> rfl
theorem idx_v46_v47 (j : Fin 16) : idx_main_v46 (idx_main_v47 (ix3 b t j)) = ix1 j := by funext a; fin_cases a; rfl
theorem idx_v52_v53 (j : Fin 16) : idx_main_v52 (idx_main_v53 (ix3 b t j)) = ix2 b t := by funext a; fin_cases a <;> rfl
theorem idx_v56 (k : Fin 16) : idx_main_v56 (ix2 b t) k = ix3 b t k := by funext a; fin_cases a <;> rfl
theorem idx_v57_v58 (j : Fin 16) : idx_main_v57 (idx_main_v58 (ix3 b t j)) = ix2 b t := by funext a; fin_cases a <;> rfl
theorem lidx_v60 (d : Fin 768) (k : Fin 16) : lidx_main_v60 (ix3 b t d) k = ix3 b t k := by funext a; fin_cases a <;> rfl
theorem ridx_v60 (d : Fin 768) (k : Fin 16) : ridx_main_v60 (ix3 b t d) k = ix2 k d := by funext a; fin_cases a <;> rfl

/-- The score of slot `j`: the contraction over the features, over the broadcast divisor, plus the slot's salience. -/
theorem score2 (j : Fin 16) :
    val_main_v48 (F := Ideal) x0 x7 x9 (ix3 b t j) = refScore (qRow x0 b t) (tab x7) (vec x9) j := by
  rw [val_main_v48_apply, val_main_v45_apply, val_main_v43_apply, val_main_v44_apply, val_main_cst_10_apply,
    val_main_v47_apply, val_main_v46_apply]
  simp only [lidx_v43, ridx_v43, idx_v46_v47, Ideal.hostDivf_def, Ideal.addf_def, Ideal.ofBits_def]
  rfl

/-- The row maximum: the reduce from −∞ along the slots, joined once more with a splat of −∞. -/
theorem max2 : val_main_v51 (F := Ideal) x0 x7 x9 (ix2 b t) = refMax (refScore (qRow x0 b t) (tab x7) (vec x9)) := by
  have hfold : val_main_v49 (F := Ideal) x0 x7 x9 (ix2 b t)
      = (Finset.univ : Finset (Fin 16)).fold max ⊥ (fun j : Fin 16 => val_main_v48 (F := Ideal) x0 x7 x9 (ix3 b t j)) :=
    hostReduce_max_lastAxis (val_main_v48 (F := Ideal) x0 x7 x9) _ _ b t
  rw [val_main_v51_apply, val_main_v50_apply, val_main_cst_12_apply, hfold]
  simp only [score2, Ideal.maximumf_def, Ideal.ofBits_def, ofBits_negInf]
  rfl

/-- The shifted exponential of slot `j`. -/
theorem exp2 (j : Fin 16) :
    val_main_v55 (F := Ideal) x0 x7 x9 (ix3 b t j)
      = Ideal.exp (refScore (qRow x0 b t) (tab x7) (vec x9) j - refMax (refScore (qRow x0 b t) (tab x7) (vec x9))) := by
  rw [val_main_v55_apply, val_main_v54_apply, val_main_v53_apply, val_main_v52_apply, idx_v52_v53, score2, max2]
  simp only [Ideal.hostUnary_exp_def, Ideal.subf_def]

/-- The row's sum of exponentials, accumulated from the zero word. -/
theorem sum2 :
    val_main_v56 (F := Ideal) x0 x7 x9 (ix2 b t)
      = 0 + ∑ i : Fin 16, Ideal.exp (refScore (qRow x0 b t) (tab x7) (vec x9) i - refMax (refScore (qRow x0 b t) (tab x7) (vec x9))) := by
  rw [val_main_v56_apply, val_main_cst_13_apply]
  simp only [idx_v56, exp2, Ideal.ofBits_def, Ideal.ofBits_zero_f32]

/-- The softmax weight of slot `j`. -/
theorem attn2 (j : Fin 16) :
    val_main_v59 (F := Ideal) x0 x7 x9 (ix3 b t j) = refAttn (refScore (qRow x0 b t) (tab x7) (vec x9)) j := by
  rw [val_main_v59_apply, val_main_v58_apply, val_main_v57_apply, idx_v57_v58, exp2, sum2]
  simp only [Ideal.hostDivf_def]
  rfl

/-- The level's contribution at feature `d`: the weights against the value rows, times the broadcast weight of a level. -/
theorem level2 (d : Fin 768) :
    val_main_v62 (F := Ideal) x0 x7 x8 x9 (ix3 b t d) = refLevel (qRow x0 b t) (tab x7) (tab x8) (vec x9) d := by
  rw [val_main_v62_apply, val_main_v60_apply, val_main_v61_apply, val_main_cst_14_apply]
  simp only [lidx_v60, ridx_v60, attn2, Ideal.mulf_def, Ideal.ofBits_def]
  rfl

end Level2

/-! ## The three levels accumulated, and the run -/

/-- The result at (b, t, d): the three levels' contributions added in order onto a splat of the zero word. -/
theorem out_apply (x0 : (⟨S4x4096x768, .f32⟩ : BufTy).Contents (Elt Ideal)) (x1 x2 : (⟨S64x768, .f32⟩ : BufTy).Contents (Elt Ideal))
    (x3 : (⟨S64, .f32⟩ : BufTy).Contents (Elt Ideal)) (x4 x5 : (⟨S32x768, .f32⟩ : BufTy).Contents (Elt Ideal))
    (x6 : (⟨S32, .f32⟩ : BufTy).Contents (Elt Ideal)) (x7 x8 : (⟨S16x768, .f32⟩ : BufTy).Contents (Elt Ideal))
    (x9 : (⟨S16, .f32⟩ : BufTy).Contents (Elt Ideal)) (b : Fin 4) (t : Fin 4096) (d : Fin 768) :
    val_main_v63 (F := Ideal) x0 x1 x2 x3 x4 x5 x6 x7 x8 x9 (ix3 b t d)
      = refOut (qRow x0 b t) (tab x1) (tab x2) (vec x3) (tab x4) (tab x5) (vec x6) (tab x7) (tab x8) (vec x9) d := by
  rw [val_main_v63_apply, val_main_v42_apply, val_main_v21_apply, val_main_v0_apply, val_main_cst_apply,
    level0, level1, level2]
  simp only [Ideal.addf_def, Ideal.ofBits_def, Ideal.ofBits_zero_f32]
  rfl

/-- The run's term for the result is, index by index, the level-by-level form of the launch memory's inputs. -/
theorem res_eq (m : (ℓ : Loc nD τ sig) → Buf (Elt Ideal) ℓ) (c : Dev nD) :
    Cert.ReferenceIdeal.Value.res_main_v63 (F := Ideal) m c
      = (fun i : S4x4096x768.Idx => (inp m c).ref (i 0) (i 1) (i 2)) := by
  rw [val_main_v63_eq]
  funext i
  obtain ⟨b, t, d, rfl⟩ : ∃ (b : Fin 4) (t : Fin 4096) (d : Fin 768), i = ix3 b t d := ⟨i 0, i 1, i 2, eq_ix3 i⟩
  rw [out_apply]
  rfl

/-- Every weakly fair execution of the level-by-level program terminates with its result the level-by-level form of
    the launch memory's inputs at every index, and the ten argument arrays unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v63) = (fun i : S4x4096x768.Idx => (inp m c).ref (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.ReferenceIdeal.defs (F := Ideal)) _ _).mono (fun _ h c => ⟨(h c).1.trans (res_eq m c), (h c).2⟩)
    (Cert.ReferenceIdeal.Value.run (F := Ideal) m ρ)

end Cert.ReferenceIdeal.RefVal

end
-- ==== Proof.lean ====
/-
  A three-level memory read, and a kernel that does the three levels at once.

  The reference scores a query row against three key tables of 64, 32 and 16 slots (dot product over 768 features,
  divided by the value of the word `0x41DDB3D7`, plus a per-slot salience), softmaxes each level's scores, averages that
  level's value rows with the weights, and adds the three reads with weight `third` each. The kernel stacks the three
  tables into one table of 128 slots (sixteen zero slots at the end), scores a block of 512 query rows against it in one
  contraction scaled by the NAMED reciprocal of that divisor, takes for each of the three column ranges a softmax over all
  128 columns with the columns outside the range filled with the NAMED `⊥`, adds the three weight rows, scales by
  `third` and contracts with the stacked values.

  Over the extended reals the two are one function of finite inputs: the named reciprocal makes the scores equal
  (division by a nonzero real is the product with its reciprocal); `⊥` is neutral for the row maximum and
  `exp ⊥ = 0`, so a masked softmax over 128 columns is the range's own softmax inside the range and zero outside it;
  the stacked contraction splits into the three ranges and a zero tail; and in each range the factor `third` moves
  across a finite sum of real numbers — the one step that needs the inputs finite.

  Both kernel programs run to the end with their arguments unchanged: host lines build the stacked tables, one
  pipelined region of 32 points stores one whole output block per point from four whole input blocks, one reshape
  follows. The reference's run is the composition of its host operations. The four ledger entries are the two names'
  values at the ideal instance.
-/
import proofs.«105692_g850403525362_cont_9to1_m_493_2_alg».proof.Defs
import proofs.«105692_g850403525362_cont_9to1_m_493_2_alg».proof.Proof.Gen.Kernel
import proofs.«105692_g850403525362_cont_9to1_m_493_2_alg».proof.Proof.Gen.KernelIdeal
import proofs.«105692_g850403525362_cont_9to1_m_493_2_alg».proof.Proof.Gen.ReferenceIdeal
import proofs.«105692_g850403525362_cont_9to1_m_493_2_alg».proof.Proof.Gen.Pre_finite_inputs
import proofs.«105692_g850403525362_cont_9to1_m_493_2_alg».proof.Proof.FrameK
import proofs.«105692_g850403525362_cont_9to1_m_493_2_alg».proof.Proof.FinalKI
import proofs.«105692_g850403525362_cont_9to1_m_493_2_alg».proof.Proof.FiniteKI
import proofs.«105692_g850403525362_cont_9to1_m_493_2_alg».proof.Proof.Bridge
import proofs.«105692_g850403525362_cont_9to1_m_493_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Frm.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Frm.frame m ρ

/-- The reference runs and leaves its arguments as launched: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefVal.run_spec m ρ)

/-- The ledger: the scale's name denotes the reciprocal of the reference's divisor, and the mask fill's name denotes
    `⊥` at each of its three sites. -/
theorem preserves : Cert.preserves_Kernel_KernelIdeal :=
  ⟨IdealRules.named_const.statement Cert.KernelIdeal.κ "inv_sqrt_d" .f32 0x3D13CD3A#32 ((524288 / 14529495 : ℝ) : EReal) rfl,
   IdealRules.named_const.statement Cert.KernelIdeal.κ "neg_big" .f32 0xF149F2CA#32 ⊥ rfl,
   IdealRules.named_const.statement Cert.KernelIdeal.κ "neg_big" .f32 0xF149F2CA#32 ⊥ rfl,
   IdealRules.named_const.statement Cert.KernelIdeal.κ "neg_big" .f32 0xF149F2CA#32 ⊥ rfl⟩

/-- From memories that agree on the arguments, the kernel's result is the stacked form of the inputs and the
    reference's the level-by-level form of the same inputs; for finite inputs the two forms are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i : Cert.KernelIdeal.S4x4096x768.Idx => (Cert.KernelIdeal.Frm.inp m c).ker (i 0) (i 1) (i 2)),
    Cert.KernelIdeal.Frm.run_value m ρ, ?_⟩
  refine (θ_run Cert.ReferenceIdeal.defs _ _).mono (fun _ h c => ⟨(h c).1.trans ?_, (h c).2⟩)
    (Cert.ReferenceIdeal.RefVal.run_spec m' ρ')
  have hinp : Cert.ReferenceIdeal.RefVal.inp m' c = Cert.KernelIdeal.Frm.inp m c := by
    obtain ⟨h0, h1, h2, h3, h4, h5, h6, h7, h8, h9⟩ := hagree c
    unfold Cert.ReferenceIdeal.RefVal.inp Cert.KernelIdeal.Frm.inp
    rw [h0, h1, h2, h3, h4, h5, h6, h7, h8, h9]
  funext i
  show (Cert.ReferenceIdeal.RefVal.inp m' c).ref (i 0) (i 1) (i 2) = (Cert.KernelIdeal.Frm.inp m c).ker (i 0) (i 1) (i 2)
  rw [hinp]
  exact (Cert.HMem.ker_eq_ref _ (Cert.KernelIdeal.Frm.finite_of_pre m hpre c) (i 0) (i 1) (i 2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
